-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S32x16 .f32) (main_arg10 : FVec F S32x16 .f32) (main_arg11 : FVec F S16 .f32) (main_v33 : IVec S_ 1) : IVec S_ 1 :=
  let main_v34 : FVec F S32x16 .f32 := Host.absf main_arg9
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S32x16 .f32 := Host.absf main_arg10
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg6 : FVec F S32x32 .f32) (main_arg7 : FVec F S32x32 .f32) (main_arg8 : FVec F S32 .f32) (main_arg9 : FVec F S32x16 .f32) (main_arg10 : FVec F S32x16 .f32) (main_arg11 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_v33

def fn {F : FTy → Type} [FloatOps F] (main_arg0 : FVec F S100000x32 .f32) (main_arg1 : IVec S1600000 32) (main_arg2 : IVec S1600000 32) (main_arg3 : FVec F S32x32 .f32) (main_arg4 : FVec F S32x32 .f32) (main_arg5 : FVec F S32 .f32) (main_arg6 : FVec F S32x32 .f32) (main_arg7 : FVec F S32x32 .f32) (main_arg8 : FVec F S32 .f32) (main_arg9 : FVec F S32x16 .f32) (main_arg10 : FVec F S32x16 .f32) (main_arg11 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_v13 main_v16
-- ==== Kernel.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x32 : Shape := ⟨2, ![1, 32]⟩
abbrev S5000x32 : Shape := ⟨2, ![5000, 32]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 83
  | .vmem => 27
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32x16, .f32⟩
  | .hbm, ⟨10, _⟩ => ⟨S32x16, .f32⟩
  | .hbm, ⟨11, _⟩ => ⟨S16, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S_, .f32⟩
  | .hbm, ⟨42, _⟩ => ⟨S100000x32, .f32⟩
  | .hbm, ⟨43, _⟩ => ⟨S1600000x1, .i32⟩
  | .hbm, ⟨44, _⟩ => ⟨S100000x32, .f32⟩
  | .hbm, ⟨45, _⟩ => ⟨S100000x32, .f32⟩
  | .hbm, ⟨46, _⟩ => ⟨S100000x32, .f32⟩
  | .hbm, ⟨47, _⟩ => ⟨S1x32, .f32⟩
  | .hbm, ⟨48, _⟩ => ⟨S100000x32, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x32, .f32⟩
  | .hbm, ⟨58, _⟩ => ⟨S_, .f32⟩
  | .hbm, ⟨59, _⟩ => ⟨S100000x32, .f32⟩
  | .hbm, ⟨60, _⟩ => ⟨S1600000x1, .i32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x32, .f32⟩
  | .hbm, ⟨75, _⟩ => ⟨S_, .f32⟩
  | .hbm, ⟨76, _⟩ => ⟨S100000x32, .f32⟩
  | .hbm, ⟨77, _⟩ => ⟨S1600000x1, .i32⟩
  | .hbm, ⟨78, _⟩ => ⟨S100000x32, .f32⟩
  | .hbm, ⟨79, _⟩ => ⟨S100000x32, .f32⟩
  | .hbm, ⟨80, _⟩ => ⟨S100000x32, .f32⟩
  | .hbm, ⟨81, _⟩ => ⟨S1x16, .f32⟩
  | .hbm, ⟨82, _⟩ => ⟨S100000x16, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x32, .f32⟩
  | .local _ .vmem, ⟨5, _⟩ => ⟨S32x32, .f32⟩
  | .local _ .vmem, ⟨6, _⟩ => ⟨S1x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x32, .f32⟩
  | .local _ .vmem, ⟨14, _⟩ => ⟨S32x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x16, .f32⟩
  | .local _ .vmem, ⟨23, _⟩ => ⟨S32x16, .f32⟩
  | .local _ .vmem, ⟨24, _⟩ => ⟨S1x16, .f32⟩
  | .local _ .vmem, ⟨25, _⟩ => ⟨S5000x16, .f32⟩
  | .local _ .vmem, ⟨26, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S1x32 : Shape := ⟨2, ![1, 32]⟩
abbrev S100000x16 : Shape := ⟨2, ![100000, 16]⟩
abbrev S1x16 : Shape := ⟨2, ![1, 16]⟩

abbrev nBuf : Space → Nat
  | .hbm => 121
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32x16, .f32⟩
  | .hbm, ⟨10, _⟩ => ⟨S32x16, .f32⟩
  | .hbm, ⟨11, _⟩ => ⟨S16, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S_, .f32⟩
  | .hbm, ⟨41, _⟩ => ⟨S100000x32, .f32⟩
  | .hbm, ⟨42, _⟩ => ⟨S1600000x1, .i32⟩
  | .hbm, ⟨43, _⟩ => ⟨S100000x32, .f32⟩
  | .hbm, ⟨44, _⟩ => ⟨S100000x1, .f32⟩
  | .hbm, ⟨45, _⟩ => ⟨S100000x32, .f32⟩
  | .hbm, ⟨46, _⟩ => ⟨S100000x32, .f32⟩
  | .hbm, ⟨47, _⟩ => ⟨S100000x32, .f32⟩
  | .hbm, ⟨48, _⟩ => ⟨S100000x32, .f32⟩
  | .hbm, ⟨49, _⟩ => ⟨S100000x32, .f32⟩
  | .hbm, ⟨50, _⟩ => ⟨S1x32, .f32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S100000x32, .f32⟩
  | .hbm, ⟨55, _⟩ => ⟨S_, .f32⟩
  | .hbm, ⟨56, _⟩ => ⟨S100000x32, .f32⟩
  | .hbm, ⟨57, _⟩ => ⟨S100000x32, .f32⟩
  | .hbm, ⟨58, _⟩ => ⟨S_, .f32⟩
  | .hbm, ⟨59, _⟩ => ⟨S100000x32, .f32⟩
  | .hbm, ⟨60, _⟩ => ⟨S100000x32, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x32, .f32⟩
  | .hbm, ⟨70, _⟩ => ⟨S_, .f32⟩
  | .hbm, ⟨71, _⟩ => ⟨S100000x32, .f32⟩
  | .hbm, ⟨72, _⟩ => ⟨S1600000x1, .i32⟩
  | .hbm, ⟨73, _⟩ => ⟨S100000x32, .f32⟩
  | .hbm, ⟨74, _⟩ => ⟨S100000x1, .f32⟩
  | .hbm, ⟨75, _⟩ => ⟨S100000x32, .f32⟩
  | .hbm, ⟨76, _⟩ => ⟨S100000x32, .f32⟩
  | .hbm, ⟨77, _⟩ => ⟨S100000x32, .f32⟩
  | .hbm, ⟨78, _⟩ => ⟨S100000x32, .f32⟩
  | .hbm, ⟨79, _⟩ => ⟨S100000x32, .f32⟩
  | .hbm, ⟨80, _⟩ => ⟨S1x32, .f32⟩
  | .hbm, ⟨81, _⟩ => ⟨S100000x32, .f32⟩
  | .hbm, ⟨82, _⟩ => ⟨S100000x32, .f32⟩
  | .hbm, ⟨83, _⟩ => ⟨S100000x32, .f32⟩
  | .hbm, ⟨84, _⟩ => ⟨S100000x32, .f32⟩
  | .hbm, ⟨85, _⟩ => ⟨S_, .f32⟩
  | .hbm, ⟨86, _⟩ => ⟨S100000x32, .f32⟩
  | .hbm, ⟨87, _⟩ => ⟨S100000x32, .f32⟩
  | .hbm, ⟨88, _⟩ => ⟨S_, .f32⟩
  | .hbm, ⟨89, _⟩ => ⟨S100000x32, .f32⟩
  | .hbm, ⟨90, _⟩ => ⟨S100000x32, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x32, .f32⟩
  | .hbm, ⟨100, _⟩ => ⟨S_, .f32⟩
  | .hbm, ⟨101, _⟩ => ⟨S100000x32, .f32⟩
  | .hbm, ⟨102, _⟩ => ⟨S1600000x1, .i32⟩
  | .hbm, ⟨103, _⟩ => ⟨S100000x32, .f32⟩
  | .hbm, ⟨104, _⟩ => ⟨S100000x1, .f32⟩
  | .hbm, ⟨105, _⟩ => ⟨S100000x32, .f32⟩
  | .hbm, ⟨106, _⟩ => ⟨S100000x32, .f32⟩
  | .hbm, ⟨107, _⟩ => ⟨S100000x16, .f32⟩
  | .hbm, ⟨108, _⟩ => ⟨S100000x16, .f32⟩
  | .hbm, ⟨109, _⟩ => ⟨S100000x16, .f32⟩
  | .hbm, ⟨110, _⟩ => ⟨S1x16, .f32⟩
  | .hbm, ⟨111, _⟩ => ⟨S100000x16, .f32⟩
  | .hbm, ⟨112, _⟩ => ⟨S100000x16, .f32⟩
  | .hbm, ⟨113, _⟩ => ⟨S100000x16, .f32⟩
  | .hbm, ⟨114, _⟩ => ⟨S100000x16, .f32⟩
  | .hbm, ⟨115, _⟩ => ⟨S_, .f32⟩
  | .hbm, ⟨116, _⟩ => ⟨S100000x16, .f32⟩
  | .hbm, ⟨117, _⟩ => ⟨S100000x16, .f32⟩
  | .hbm, ⟨118, _⟩ => ⟨S_, .f32⟩
  | .hbm, ⟨119, _⟩ => ⟨S100000x16, .f32⟩
  | .hbm, ⟨120, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_cst_18 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.Spec.lean ====
/-
  One layer of the network, as a function of whole arrays on the extended reals.

  A layer takes the node features `h` (100000 rows of 32), the aggregated neighbour features `hn` (same
  shape), two weight matrices `ws`, `wn` (32 rows, `D` columns) and a bias `b` (`D` entries), and returns, at
  row `p` and column `j`,

      logistic ( (∑ₐ h(p,a) · ws(a,j)) + (∑ₐ hn(p,a) · wn(a,j)) + b(j) ).

  Both programs compute three such layers (widths 32, 32, 16); they differ only in how a row's sums are laid
  out (row tiles of 5000 against one whole product) and in how the logistic function is spelt.
-/
import Idealize.ShloMosaic.Lib.ValueIdx
import Idealize.ShloMosaic.PureOps.Ideal

noncomputable section

namespace Cert.Spec

open Idealize.ShloMosaic Idealize.ShloMosaic.ValueIdx

/-- The layer's value at row `p`, column `j`. -/
def layerAt (D : Nat) (h hn : (⟨2, ![100000, 32]⟩ : Shape).Idx → EReal) (ws wn : (⟨2, ![32, D]⟩ : Shape).Idx → EReal)
    (b : Fin D → EReal) (p : Fin 100000) (j : Fin D) : EReal :=
  Ideal.logistic ((∑ a : Fin 32, h (ix2 p a) * ws (ix2 a j)) + (∑ a : Fin 32, hn (ix2 p a) * wn (ix2 a j)) + b j)

/-- The layer as a whole array of 100000 rows and `D` columns. -/
def layer (D : Nat) (h hn : (⟨2, ![100000, 32]⟩ : Shape).Idx → EReal) (ws wn : (⟨2, ![32, D]⟩ : Shape).Idx → EReal)
    (b : Fin D → EReal) : (⟨2, ![100000, D]⟩ : Shape).Idx → EReal :=
  fun i => layerAt D h hn ws wn b (i 0) (i 1)

theorem layer_ix2 (D : Nat) (h hn : (⟨2, ![100000, 32]⟩ : Shape).Idx → EReal) (ws wn : (⟨2, ![32, D]⟩ : Shape).Idx → EReal)
    (b : Fin D → EReal) (p : Fin 100000) (j : Fin D) :
    layer D h hn ws wn b (ix2 p j) = layerAt D h hn ws wn b p j := rfl

/-- The three layers composed. `agg` is the neighbour aggregation (gather the rows named by the edge sources,
    add them up per destination node, scale by the inverse in-degree): the same for every layer, and a function of the
    layer's input features alone once the edge lists are fixed. -/
def net (agg : ((⟨2, ![100000, 32]⟩ : Shape).Idx → EReal) → ((⟨2, ![100000, 32]⟩ : Shape).Idx → EReal))
    (x : (⟨2, ![100000, 32]⟩ : Shape).Idx → EReal)
    (ws1 wn1 : (⟨2, ![32, 32]⟩ : Shape).Idx → EReal) (b1 : Fin 32 → EReal)
    (ws2 wn2 : (⟨2, ![32, 32]⟩ : Shape).Idx → EReal) (b2 : Fin 32 → EReal)
    (ws3 wn3 : (⟨2, ![32, 16]⟩ : Shape).Idx → EReal) (b3 : Fin 16 → EReal) : (⟨2, ![100000, 16]⟩ : Shape).Idx → EReal :=
  layer 16 (layer 32 (layer 32 x (agg x) ws1 wn1 b1) (agg (layer 32 x (agg x) ws1 wn1 b1)) ws2 wn2 b2)
    (agg (layer 32 (layer 32 x (agg x) ws1 wn1 b1) (agg (layer 32 x (agg x) ws1 wn1 b1)) ws2 wn2 b2)) ws3 wn3 b3

/-- Two aggregations that agree on every input give the same network. -/
theorem net_congr {agg agg' : ((⟨2, ![100000, 32]⟩ : Shape).Idx → EReal) → ((⟨2, ![100000, 32]⟩ : Shape).Idx → EReal)}
    (h : ∀ y, agg y = agg' y) (x : (⟨2, ![100000, 32]⟩ : Shape).Idx → EReal)
    (ws1 wn1 : (⟨2, ![32, 32]⟩ : Shape).Idx → EReal) (b1 : Fin 32 → EReal)
    (ws2 wn2 : (⟨2, ![32, 32]⟩ : Shape).Idx → EReal) (b2 : Fin 32 → EReal)
    (ws3 wn3 : (⟨2, ![32, 16]⟩ : Shape).Idx → EReal) (b3 : Fin 16 → EReal) :
    net agg x ws1 wn1 b1 ws2 wn2 b2 ws3 wn3 b3 = net agg' x ws1 wn1 b1 ws2 wn2 b2 ws3 wn3 b3 := by
  have e : agg = agg' := funext h
  rw [e]

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KRegion01.lean ====
import proofs.«103064_j19688130085786_1_alg».proof.Proof.Gen.KernelIdeal.Frame
import proofs.«103064_j19688130085786_1_alg».proof.Proof.Spec
import proofs.«103064_j19688130085786_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region01

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The contraction record of the two products: which coordinate is which -/

/-- The left operand's row is the output's row. -/
theorem lhs_dot32_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
/-- The left operand's column is the contracted index. -/
theorem lhs_dot32_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
/-- The right operand's row is the contracted index. -/
theorem rhs_dot32_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
/-- The right operand's column is the output's column. -/
theorem rhs_dot32_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- A product of a row tile with a whole weight matrix into the zero accumulator, read at row `p`, column `j`. -/
theorem matmul32_apply {φ₁ φ₂ : FTy} (l : FVec Ideal S5000x32 φ₁) (r : FVec Ideal S32x32 φ₂) (p : Fin 5000) (j : Fin 32) :
    matmul dot_S5000x32_S32x32_S5000x32_1_0_0_1_n_n none l r (constant (F := Ideal) S5000x32 .f32 0x00000000#32) (ix2 p j)
      = ∑ a : Fin 32, l (ix2 p a) * r (ix2 a j) :=
  Cert.Lib.Dot2.matmul_zero_ix2 dot_S5000x32_S32x32_S5000x32_1_0_0_1_n_n none rfl rfl lhs_dot32_0 lhs_dot32_1 rhs_dot32_0 rhs_dot32_1 l r p j

/-- The bias row broadcast down the 5000 rows, read at row `p`, column `j`: the bias at column `j`. -/
theorem bias32_apply (b : Vec Ideal S1x32 .f32) (p : Fin 5000) (j : Fin 32) :
    broadcastTo S5000x32 b broadcasts_S1x32_S5000x32 (ix2 p j) = b (ix2 0 j) :=
  broadcastTo_apply b broadcasts_S1x32_S5000x32 (ix2 p j) (ix2 0 j) (fun a => match a with
    | ⟨0, _⟩ => by show (0 : Nat) = if (1 : Nat) = 1 then 0 else p.val; rw [if_pos rfl]
    | ⟨1, _⟩ => by show j.val = if (32 : Nat) = 1 then 0 else j.val; rw [if_neg (by decide)])

/-! ## The body's stored value at an index -/

/-- Region 0's body, read at row `p` and column `j` of its tile: the layer's formula on the tile's rows. -/
theorem pay0_apply (x0 x1 : Vec Ideal S5000x32 .f32) (x2 x3 : Vec Ideal S32x32 .f32) (x4 : Vec Ideal S1x32 .f32)
    (p : Fin 5000) (j : Fin 32) :
    k0_pay1 (F := Ideal) x0 x1 x2 x3 x4 (ix2 p j)
      = Ideal.logistic ((∑ a : Fin 32, x0 (ix2 p a) * x2 (ix2 a j)) + (∑ a : Fin 32, x1 (ix2 p a) * x3 (ix2 a j)) + x4 (ix2 0 j)) := by
  unfold k0_pay1
  simp only [shapeCast_self]
  show Ideal.logistic (matmul dot_S5000x32_S32x32_S5000x32_1_0_0_1_n_n none (truncf .bf16 x0 bitsLt_bf16_f32) (truncf .bf16 x2 bitsLt_bf16_f32) (constant (F := Ideal) S5000x32 .f32 0x00000000#32) (ix2 p j)
      + matmul dot_S5000x32_S32x32_S5000x32_1_0_0_1_n_n none (truncf .bf16 x1 bitsLt_bf16_f32) (truncf .bf16 x3 bitsLt_bf16_f32) (constant (F := Ideal) S5000x32 .f32 0x00000000#32) (ix2 p j)
      + broadcastTo S5000x32 x4 broadcasts_S1x32_S5000x32 (ix2 p j)) = _
  rw [matmul32_apply, matmul32_apply, bias32_apply]
  rfl

/-- Region 1's body, read at row `p` and column `j` of its tile: the layer's formula on the tile's rows (its two
    same-shape casts of the feature tiles are the identity). -/
theorem pay1_apply (x0 x1 : Vec Ideal S5000x32 .f32) (x2 x3 : Vec Ideal S32x32 .f32) (x4 : Vec Ideal S1x32 .f32)
    (p : Fin 5000) (j : Fin 32) :
    k1_pay1 (F := Ideal) x0 x1 x2 x3 x4 (ix2 p j)
      = Ideal.logistic ((∑ a : Fin 32, x0 (ix2 p a) * x2 (ix2 a j)) + (∑ a : Fin 32, x1 (ix2 p a) * x3 (ix2 a j)) + x4 (ix2 0 j)) := by
  unfold k1_pay1
  simp only [shapeCast_self]
  show Ideal.logistic (matmul dot_S5000x32_S32x32_S5000x32_1_0_0_1_n_n none (truncf .bf16 x0 bitsLt_bf16_f32) (truncf .bf16 x2 bitsLt_bf16_f32) (constant (F := Ideal) S5000x32 .f32 0x00000000#32) (ix2 p j)
      + matmul dot_S5000x32_S32x32_S5000x32_1_0_0_1_n_n none (truncf .bf16 x1 bitsLt_bf16_f32) (truncf .bf16 x3 bitsLt_bf16_f32) (constant (F := Ideal) S5000x32 .f32 0x00000000#32) (ix2 p j)
      + broadcastTo S5000x32 x4 broadcasts_S1x32_S5000x32 (ix2 p j)) = _
  rw [matmul32_apply, matmul32_apply, bias32_apply]
  rfl

/-- The zero offsets of a whole-buffer access, however they are spelt. -/
theorem zero_off2 : (![0, 0] : Fin 2 → Nat) = fun _ => 0 := funext fun a => by fin_cases a <;> rfl

/-! ## Region 0: from the row tiles to the whole array -/

/-- The printed index maps of region 0, decided over its 20 points: the two feature windows and the output window
    are at row tile `t`, the weight and bias windows at their one block; and a point's number is below 20. -/
theorem idx_facts0 : ∀ t : Fin cfg0.N, t.val < 20
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row tile is some point's output block. -/
theorem idx_onto0 : ∀ q : Fin 20, ∃ t : Fin cfg0.N, win0_5.index t = ![q.val, 0] :=
  (by decide +kernel : ∀ q : Fin 20, ∃ t : Fin grid0.N, win0_5.index t = ![q.val, 0])

/-- Row `p` of the first feature window's tile at point `t` is row `5000 t + p` of its array. -/
theorem tile0_0_apply (c : Dev nD) (t : Fin cfg0.N) (ht : t.val < 20) (p : Fin 5000) (a : Fin 32) :
    (iblk0 (F := Ideal) V c 0 t : Vec Ideal S5000x32 .f32) (ix2 p a)
      = V c main_arg0 (ix2 (⟨t.val * 5000 + p.val, by have := p.isLt; omega⟩ : Fin 100000) a) := by
  obtain ⟨-, e00, e01, -⟩ := idx_facts0 t
  have he : ((cfg0.win 0).blk t).view.emb (ix2 p a) = ix2 (⟨t.val * 5000 + p.val, by have := p.isLt; omega⟩ : Fin 100000) a := by
    funext d; apply Fin.ext
    match d with
    | ⟨0, _⟩ => show win0_0.index t (0 : Fin 2) * 5000 + 1 * p.val = t.val * 5000 + p.val; omega
    | ⟨1, _⟩ => show win0_0.index t (1 : Fin 2) * 32 + 1 * a.val = a.val; omega
  show V c main_arg0 (((cfg0.win 0).blk t).view.emb (ix2 p a)) = _
  rw [he]

/-- Row `p` of the second feature window's tile at point `t` is row `5000 t + p` of its array. -/
theorem tile0_1_apply (c : Dev nD) (t : Fin cfg0.N) (ht : t.val < 20) (p : Fin 5000) (a : Fin 32) :
    (iblk0 (F := Ideal) V c 1 t : Vec Ideal S5000x32 .f32) (ix2 p a)
      = V c main_v23 (ix2 (⟨t.val * 5000 + p.val, by have := p.isLt; omega⟩ : Fin 100000) a) := by
  obtain ⟨-, -, -, e10, e11, -⟩ := idx_facts0 t
  have he : ((cfg0.win 1).blk t).view.emb (ix2 p a) = ix2 (⟨t.val * 5000 + p.val, by have := p.isLt; omega⟩ : Fin 100000) a := by
    funext d; apply Fin.ext
    match d with
    | ⟨0, _⟩ => show win0_1.index t (0 : Fin 2) * 5000 + 1 * p.val = t.val * 5000 + p.val; omega
    | ⟨1, _⟩ => show win0_1.index t (1 : Fin 2) * 32 + 1 * a.val = a.val; omega
  show V c main_v23 (((cfg0.win 1).blk t).view.emb (ix2 p a)) = _
  rw [he]

/-- The first weight window's block is the whole matrix, at every point. -/
theorem whole0_2_apply (c : Dev nD) (t : Fin cfg0.N) (a : Fin 32) (j : Fin 32) :
    (iblk0 (F := Ideal) V c 2 t : Vec Ideal S32x32 .f32) (ix2 a j) = V c main_arg3 (ix2 a j) := by
  obtain ⟨-, -, -, -, -, e20, e21, -⟩ := idx_facts0 t
  have he : ((cfg0.win 2).blk t).view.emb (ix2 a j) = ix2 a j := by
    funext d; apply Fin.ext
    match d with
    | ⟨0, _⟩ => show win0_2.index t (0 : Fin 2) * 32 + 1 * a.val = a.val; omega
    | ⟨1, _⟩ => show win0_2.index t (1 : Fin 2) * 32 + 1 * j.val = j.val; omega
  show V c main_arg3 (((cfg0.win 2).blk t).view.emb (ix2 a j)) = _
  rw [he]

/-- The second weight window's block is the whole matrix, at every point. -/
theorem whole0_3_apply (c : Dev nD) (t : Fin cfg0.N) (a : Fin 32) (j : Fin 32) :
    (iblk0 (F := Ideal) V c 3 t : Vec Ideal S32x32 .f32) (ix2 a j) = V c main_arg4 (ix2 a j) := by
  obtain ⟨-, -, -, -, -, -, -, e30, e31, -⟩ := idx_facts0 t
  have he : ((cfg0.win 3).blk t).view.emb (ix2 a j) = ix2 a j := by
    funext d; apply Fin.ext
    match d with
    | ⟨0, _⟩ => show win0_3.index t (0 : Fin 2) * 32 + 1 * a.val = a.val; omega
    | ⟨1, _⟩ => show win0_3.index t (1 : Fin 2) * 32 + 1 * j.val = j.val; omega
  show V c main_arg4 (((cfg0.win 3).blk t).view.emb (ix2 a j)) = _
  rw [he]

/-- The bias window's block is the whole bias row, at every point. -/
theorem whole0_4_apply (c : Dev nD) (t : Fin cfg0.N) (j : Fin 32) :
    (iblk0 (F := Ideal) V c 4 t : Vec Ideal S1x32 .f32) (ix2 0 j) = V c main_v24 (ix2 0 j) := by
  obtain ⟨-, -, -, -, -, -, -, -, -, e40, e41, -⟩ := idx_facts0 t
  have he : ((cfg0.win 4).blk t).view.emb (ix2 (0 : Fin 1) j) = ix2 (0 : Fin 1) j := by
    funext d; apply Fin.ext
    match d with
    | ⟨0, _⟩ => show win0_4.index t (0 : Fin 2) * 1 + 1 * (0 : Fin 1).val = (0 : Fin 1).val; omega
    | ⟨1, _⟩ => show win0_4.index t (1 : Fin 2) * 32 + 1 * j.val = j.val; omega
  show V c main_v24 (((cfg0.win 4).blk t).view.emb (ix2 (0 : Fin 1) j)) = _
  rw [he]

/-- WHAT POINT `t` WRITES BACK is row tile `t` of the layer of the five arrays as the region finds them. -/
theorem flushed0_eq (c : Dev nD) (t : Fin cfg0.N) :
    (dat0 (F := Ideal) V c).flushed 5 t = ((cfg0.win 5).blk t).view.read (Elt Ideal) (Cert.Spec.layer 32 (V c main_arg0) (V c main_v23) (V c main_arg3) (V c main_arg4) (fun j => V c main_v24 (ix2 0 j))) := by
  show (cfg0.win 5).cut (grid0.coords t) ((dat0 V c).after 5 t) = _
  rw [after0_5]
  unfold out0_5
  rw [View.canon_unit_zero zero_off2]
  simp only [View.ld_unit_zero (S := S5000x32) zero_off2, View.ld_unit_zero (S := S32x32) zero_off2, View.ld_unit_zero (S := S1x32) zero_off2]
  obtain ⟨ht, -, -, -, -, -, -, -, -, -, -, e50, e51⟩ := idx_facts0 t
  funext y
  obtain ⟨p, j, rfl⟩ : ∃ (p : Fin 5000) (j : Fin 32), y = ix2 p j := ⟨y 0, y 1, eq_ix2 (n0 := 5000) (n1 := 32) y⟩
  have he : ((cfg0.win 5).blk t).view.emb (ix2 p j) = ix2 (⟨t.val * 5000 + p.val, by have := p.isLt; omega⟩ : Fin 100000) j := by
    funext d; apply Fin.ext
    match d with
    | ⟨0, _⟩ => show win0_5.index t (0 : Fin 2) * 5000 + 1 * p.val = t.val * 5000 + p.val; omega
    | ⟨1, _⟩ => show win0_5.index t (1 : Fin 2) * 32 + 1 * j.val = j.val; omega
  show k0_pay1 (F := Ideal) (iblk0 V c 0 t) (iblk0 V c 1 t) (iblk0 V c 2 t) (iblk0 V c 3 t) (iblk0 V c 4 t) (ix2 p j)
    = Cert.Spec.layer 32 (V c main_arg0) (V c main_v23) (V c main_arg3) (V c main_arg4) (fun j => V c main_v24 (ix2 0 j)) (((cfg0.win 5).blk t).view.emb (ix2 p j))
  rw [he, Cert.Spec.layer_ix2]
  refine (pay0_apply (iblk0 V c 0 t) (iblk0 V c 1 t) (iblk0 V c 2 t) (iblk0 V c 3 t) (iblk0 V c 4 t) p j).trans ?_
  unfold Cert.Spec.layerAt
  simp only [tile0_0_apply V c t ht, tile0_1_apply V c t ht, whole0_2_apply V c t, whole0_3_apply V c t, whole0_4_apply V c t]

/-- An index of the output array is in point `t`'s block iff each coordinate is in the block's range on its axis. -/
theorem mem_blk0 (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v25).slice (win0_5.rect t)).set ↔ _
  rw [View.set_slice_whole, Rect.mem_set_unit]
  exact Iff.rfl

/-- EVERY index of the output array is in some point's block: row `r` is in tile `r / 5000`. -/
theorem cover0 (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

theorem final0 (c : Dev nD) :
    (dat0 (F := Ideal) V c).arrAt 5 cfg0.N
      = Cert.Spec.layer 32 (V c main_arg0) (V c main_v23) (V c main_arg3) (V c main_arg4) (fun j => V c main_v24 (ix2 0 j)) :=
  (dat0 (F := Ideal) V c).arrAt_eq_of_cover 5 _ (fun t _ => flushed0_eq V c t) cover0

/-! ## Region 1: from the row tiles to the whole array -/

/-- The printed index maps of region 1, decided over its 20 points: the two feature windows and the output window
    are at row tile `t`, the weight and bias windows at their one block; and a point's number is below 20. -/
theorem idx_facts1 : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row tile is some point's output block. -/
theorem idx_onto1 : ∀ q : Fin 20, ∃ t : Fin cfg1.N, win1_5.index t = ![q.val, 0] :=
  (by decide +kernel : ∀ q : Fin 20, ∃ t : Fin grid1.N, win1_5.index t = ![q.val, 0])

/-- Row `p` of the first feature window's tile at point `t` is row `5000 t + p` of its array. -/
theorem tile1_0_apply (c : Dev nD) (t : Fin cfg1.N) (ht : t.val < 20) (p : Fin 5000) (a : Fin 32) :
    (iblk1 (F := Ideal) V c 0 t : Vec Ideal S5000x32 .f32) (ix2 p a)
      = V c main_v25 (ix2 (⟨t.val * 5000 + p.val, by have := p.isLt; omega⟩ : Fin 100000) a) := by
  obtain ⟨-, e00, e01, -⟩ := idx_facts1 t
  have he : ((cfg1.win 0).blk t).view.emb (ix2 p a) = ix2 (⟨t.val * 5000 + p.val, by have := p.isLt; omega⟩ : Fin 100000) a := by
    funext d; apply Fin.ext
    match d with
    | ⟨0, _⟩ => show win1_0.index t (0 : Fin 2) * 5000 + 1 * p.val = t.val * 5000 + p.val; omega
    | ⟨1, _⟩ => show win1_0.index t (1 : Fin 2) * 32 + 1 * a.val = a.val; omega
  show V c main_v25 (((cfg1.win 0).blk t).view.emb (ix2 p a)) = _
  rw [he]

/-- Row `p` of the second feature window's tile at point `t` is row `5000 t + p` of its array. -/
theorem tile1_1_apply (c : Dev nD) (t : Fin cfg1.N) (ht : t.val < 20) (p : Fin 5000) (a : Fin 32) :
    (iblk1 (F := Ideal) V c 1 t : Vec Ideal S5000x32 .f32) (ix2 p a)
      = V c main_v37 (ix2 (⟨t.val * 5000 + p.val, by have := p.isLt; omega⟩ : Fin 100000) a) := by
  obtain ⟨-, -, -, e10, e11, -⟩ := idx_facts1 t
  have he : ((cfg1.win 1).blk t).view.emb (ix2 p a) = ix2 (⟨t.val * 5000 + p.val, by have := p.isLt; omega⟩ : Fin 100000) a := by
    funext d; apply Fin.ext
    match d with
    | ⟨0, _⟩ => show win1_1.index t (0 : Fin 2) * 5000 + 1 * p.val = t.val * 5000 + p.val; omega
    | ⟨1, _⟩ => show win1_1.index t (1 : Fin 2) * 32 + 1 * a.val = a.val; omega
  show V c main_v37 (((cfg1.win 1).blk t).view.emb (ix2 p a)) = _
  rw [he]

/-- The first weight window's block is the whole matrix, at every point. -/
theorem whole1_2_apply (c : Dev nD) (t : Fin cfg1.N) (a : Fin 32) (j : Fin 32) :
    (iblk1 (F := Ideal) V c 2 t : Vec Ideal S32x32 .f32) (ix2 a j) = V c main_arg6 (ix2 a j) := by
  obtain ⟨-, -, -, -, -, e20, e21, -⟩ := idx_facts1 t
  have he : ((cfg1.win 2).blk t).view.emb (ix2 a j) = ix2 a j := by
    funext d; apply Fin.ext
    match d with
    | ⟨0, _⟩ => show win1_2.index t (0 : Fin 2) * 32 + 1 * a.val = a.val; omega
    | ⟨1, _⟩ => show win1_2.index t (1 : Fin 2) * 32 + 1 * j.val = j.val; omega
  show V c main_arg6 (((cfg1.win 2).blk t).view.emb (ix2 a j)) = _
  rw [he]

/-- The second weight window's block is the whole matrix, at every point. -/
theorem whole1_3_apply (c : Dev nD) (t : Fin cfg1.N) (a : Fin 32) (j : Fin 32) :
    (iblk1 (F := Ideal) V c 3 t : Vec Ideal S32x32 .f32) (ix2 a j) = V c main_arg7 (ix2 a j) := by
  obtain ⟨-, -, -, -, -, -, -, e30, e31, -⟩ := idx_facts1 t
  have he : ((cfg1.win 3).blk t).view.emb (ix2 a j) = ix2 a j := by
    funext d; apply Fin.ext
    match d with
    | ⟨0, _⟩ => show win1_3.index t (0 : Fin 2) * 32 + 1 * a.val = a.val; omega
    | ⟨1, _⟩ => show win1_3.index t (1 : Fin 2) * 32 + 1 * j.val = j.val; omega
  show V c main_arg7 (((cfg1.win 3).blk t).view.emb (ix2 a j)) = _
  rw [he]

/-- The bias window's block is the whole bias row, at every point. -/
theorem whole1_4_apply (c : Dev nD) (t : Fin cfg1.N) (j : Fin 32) :
    (iblk1 (F := Ideal) V c 4 t : Vec Ideal S1x32 .f32) (ix2 0 j) = V c main_v38 (ix2 0 j) := by
  obtain ⟨-, -, -, -, -, -, -, -, -, e40, e41, -⟩ := idx_facts1 t
  have he : ((cfg1.win 4).blk t).view.emb (ix2 (0 : Fin 1) j) = ix2 (0 : Fin 1) j := by
    funext d; apply Fin.ext
    match d with
    | ⟨0, _⟩ => show win1_4.index t (0 : Fin 2) * 1 + 1 * (0 : Fin 1).val = (0 : Fin 1).val; omega
    | ⟨1, _⟩ => show win1_4.index t (1 : Fin 2) * 32 + 1 * j.val = j.val; omega
  show V c main_v38 (((cfg1.win 4).blk t).view.emb (ix2 (0 : Fin 1) j)) = _
  rw [he]

/-- WHAT POINT `t` WRITES BACK is row tile `t` of the layer of the five arrays as the region finds them. -/
theorem flushed1_eq (c : Dev nD) (t : Fin cfg1.N) :
    (dat1 (F := Ideal) V c).flushed 5 t = ((cfg1.win 5).blk t).view.read (Elt Ideal) (Cert.Spec.layer 32 (V c main_v25) (V c main_v37) (V c main_arg6) (V c main_arg7) (fun j => V c main_v38 (ix2 0 j))) := by
  show (cfg1.win 5).cut (grid1.coords t) ((dat1 V c).after 5 t) = _
  rw [after1_5]
  unfold out1_5
  rw [View.canon_unit_zero zero_off2]
  simp only [View.ld_unit_zero (S := S5000x32) zero_off2, View.ld_unit_zero (S := S32x32) zero_off2, View.ld_unit_zero (S := S1x32) zero_off2]
  obtain ⟨ht, -, -, -, -, -, -, -, -, -, -, e50, e51⟩ := idx_facts1 t
  funext y
  obtain ⟨p, j, rfl⟩ : ∃ (p : Fin 5000) (j : Fin 32), y = ix2 p j := ⟨y 0, y 1, eq_ix2 (n0 := 5000) (n1 := 32) y⟩
  have he : ((cfg1.win 5).blk t).view.emb (ix2 p j) = ix2 (⟨t.val * 5000 + p.val, by have := p.isLt; omega⟩ : Fin 100000) j := by
    funext d; apply Fin.ext
    match d with
    | ⟨0, _⟩ => show win1_5.index t (0 : Fin 2) * 5000 + 1 * p.val = t.val * 5000 + p.val; omega
    | ⟨1, _⟩ => show win1_5.index t (1 : Fin 2) * 32 + 1 * j.val = j.val; omega
  show k1_pay1 (F := Ideal) (iblk1 V c 0 t) (iblk1 V c 1 t) (iblk1 V c 2 t) (iblk1 V c 3 t) (iblk1 V c 4 t) (ix2 p j)
    = Cert.Spec.layer 32 (V c main_v25) (V c main_v37) (V c main_arg6) (V c main_arg7) (fun j => V c main_v38 (ix2 0 j)) (((cfg1.win 5).blk t).view.emb (ix2 p j))
  rw [he, Cert.Spec.layer_ix2]
  refine (pay1_apply (iblk1 V c 0 t) (iblk1 V c 1 t) (iblk1 V c 2 t) (iblk1 V c 3 t) (iblk1 V c 4 t) p j).trans ?_
  unfold Cert.Spec.layerAt
  simp only [tile1_0_apply V c t ht, tile1_1_apply V c t ht, whole1_2_apply V c t, whole1_3_apply V c t, whole1_4_apply V c t]

/-- An index of the output array is in point `t`'s block iff each coordinate is in the block's range on its axis. -/
theorem mem_blk1 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v39).slice (win1_5.rect t)).set ↔ _
  rw [View.set_slice_whole, Rect.mem_set_unit]
  exact Iff.rfl

/-- EVERY index of the output array is in some point's block: row `r` is in tile `r / 5000`. -/
theorem cover1 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

theorem final1 (c : Dev nD) :
    (dat1 (F := Ideal) V c).arrAt 5 cfg1.N
      = Cert.Spec.layer 32 (V c main_v25) (V c main_v37) (V c main_arg6) (V c main_arg7) (fun j => V c main_v38 (ix2 0 j)) :=
  (dat1 (F := Ideal) V c).arrAt_eq_of_cover 5 _ (fun t _ => flushed1_eq V c t) cover1

end Cert.KernelIdeal.Region01

end
-- ==== Proof.KRegion2.lean ====
import proofs.«103064_j19688130085786_1_alg».proof.Proof.Gen.KernelIdeal.Frame
import proofs.«103064_j19688130085786_1_alg».proof.Proof.Spec
import proofs.«103064_j19688130085786_1_alg».proof.Proof.LibDot2
import Idealize.ShloMosaic.Lib.Pipeline.Value
import Idealize.ShloMosaic.Lib.ValueIdx
import Idealize.ShloMosaic.Lib.ValueLayout
import Idealize.ShloMosaic.PureOps.Ideal.Laws

/-
  The third layer (width 16) as the kernel computes it: twenty row tiles of 5000 rows.

  At grid point `t` the body reads row tile `t` of the node features and of the aggregated neighbour features,
  the two whole 32 × 16 weight matrices and the bias as a 1 × 16 array, and stores

      logistic ( tile · ws  +  tileₙ · wn  +  bias row )

  into row tile `t` of the output. Read at row `p` of the tile and column `j` this is the layer function at row
  `t · 5000 + p`, column `j`; the twenty tiles fill the 100000 rows exactly, so after the run the output array is the
  layer function of the five input arrays.
-/

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's stored value at an entry -/

/-- A whole-buffer access starts at offset zero on both axes. -/
theorem off_zero : (![0, 0] : Fin 2 → Nat) = fun _ => 0 := funext fun a => by fin_cases a <;> rfl

/-- The product's dimension numbers: the left operand's row is the output's row, -/
theorem lhs_dot_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
/-- its column is the contracted index, -/
theorem lhs_dot_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
/-- the right operand's row is the contracted index -/
theorem rhs_dot_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
/-- and its column is the output's column. -/
theorem rhs_dot_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- A 5000 × 32 by 32 × 16 product into the zero accumulator, at row `p` and column `j`: the sum over the 32
    contracted positions. -/
theorem matmul_at (l : FVec Ideal S5000x32 .bf16) (r : FVec Ideal S32x16 .bf16) (p : Fin 5000) (j : Fin 16) :
    matmul dot_S5000x32_S32x16_S5000x16_1_0_0_1_n_n none l r (constant (F := Ideal) S5000x16 .f32 0x00000000#32) (ix2 p j)
      = ∑ a : Fin 32, l (ix2 p a) * r (ix2 a j) :=
  Cert.Lib.Dot2.matmul_zero_ix2 dot_S5000x32_S32x16_S5000x16_1_0_0_1_n_n none rfl rfl lhs_dot_0 lhs_dot_1 rhs_dot_0 rhs_dot_1 l r p j

/-- The value the body stores, at row `p` and column `j` of the tile: on the extended reals the narrowing to the
    16-bit format and the same-shape casts are the identity, each product is its sum, the bias row is read at
    column `j` whatever the row. -/
theorem pay_apply (x0 x1 : Vec Ideal S5000x32 .f32) (x2 x3 : Vec Ideal S32x16 .f32) (x4 : Vec Ideal S1x16 .f32) (p : Fin 5000) (j : Fin 16) :
    k2_pay1 (F := Ideal) x0 x1 x2 x3 x4 (ix2 p j)
      = Ideal.logistic ((∑ a : Fin 32, x0 (ix2 p a) * x2 (ix2 a j)) + (∑ a : Fin 32, x1 (ix2 p a) * x3 (ix2 a j)) + x4 (ix2 0 j)) := by
  unfold k2_pay1
  simp only [shapeCast_self]
  rw [show ∀ (v : FVec Ideal S5000x16 .f32) (i : S5000x16.Idx), logistic v i = Ideal.logistic (v i) from fun _ _ => rfl]
  rw [addf_apply, addf_apply, matmul_at, matmul_at, broadcastTo_1b_ab_apply]
  rfl

/-- The output buffer after the body, at row `p` and column `j`: its one store covers the whole buffer, and every
    load reads a whole buffer. -/
theorem out_apply (x0 x1 : Vec Ideal S5000x32 .f32) (x2 x3 : Vec Ideal S32x16 .f32) (x4 : Vec Ideal S1x16 .f32) (p : Fin 5000) (j : Fin 16) :
    out2_5 (F := Ideal) x0 x1 x2 x3 x4 (ix2 p j)
      = Ideal.logistic ((∑ a : Fin 32, x0 (ix2 p a) * x2 (ix2 a j)) + (∑ a : Fin 32, x1 (ix2 p a) * x3 (ix2 a j)) + x4 (ix2 0 j)) := by
  unfold out2_5
  rw [View.canon_unit_zero off_zero]
  simp only [View.ld_unit_zero (S := S5000x32) off_zero, View.ld_unit_zero (S := S32x16) off_zero, View.ld_unit_zero (S := S1x16) off_zero]
  exact pay_apply x0 x1 x2 x3 x4 p j

variable (V : (c : Dev nD) → (b : Ref sig .tc) → Buf (Elt Ideal) ((c : Thread nD τ).loc b))

/-! ## Where each block sits in its array -/

/-- The index maps over the twenty grid points: the two feature windows and the output window are at row block
    `t`, column block 0; the weight matrices and the bias are always at block (0, 0). -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row tile `t` of the node features at `(p, a)` is the array at row `t · 5000 + p`, column `a`. -/
theorem blk0_apply (c : Dev nD) (t : Fin cfg2.N) (p : Fin 5000) (a : Fin 32) (i : S100000x32.Idx)
    (h0 : (i 0).val = t.val * 5000 + p.val) (h1 : (i 1).val = a.val) :
    iblk2 V c 0 t (ix2 p a) = V c main_v39 i := by
  obtain ⟨f0, f1, -, -, -, -, -, -, -, -, g0, g1⟩ := idx_facts t
  show V c main_v39 (((cfg2.win 0).blk t).view.emb (ix2 p a)) = V c main_v39 i
  refine congrArg _ (funext fun d => Fin.ext ?_)
  match d with
  | ⟨0, _⟩ => show win2_0.index t (0 : Fin 2) * 5000 + 1 * p.val = (i 0).val; omega
  | ⟨1, _⟩ => show win2_0.index t (1 : Fin 2) * 32 + 1 * a.val = (i 1).val; omega

/-- Row tile `t` of the neighbour features at `(p, a)` is the array at row `t · 5000 + p`, column `a`. -/
theorem blk1_apply (c : Dev nD) (t : Fin cfg2.N) (p : Fin 5000) (a : Fin 32) (i : S100000x32.Idx)
    (h0 : (i 0).val = t.val * 5000 + p.val) (h1 : (i 1).val = a.val) :
    iblk2 V c 1 t (ix2 p a) = V c main_v51 i := by
  obtain ⟨-, -, f0, f1, -, -, -, -, -, -, g0, g1⟩ := idx_facts t
  show V c main_v51 (((cfg2.win 1).blk t).view.emb (ix2 p a)) = V c main_v51 i
  refine congrArg _ (funext fun d => Fin.ext ?_)
  match d with
  | ⟨0, _⟩ => show win2_1.index t (0 : Fin 2) * 5000 + 1 * p.val = (i 0).val; omega
  | ⟨1, _⟩ => show win2_1.index t (1 : Fin 2) * 32 + 1 * a.val = (i 1).val; omega

/-- The first weight matrix's one block is the whole matrix. -/
theorem blk2_apply (c : Dev nD) (t : Fin cfg2.N) (a : Fin 32) (j : Fin 16) (i : S32x16.Idx)
    (h0 : (i 0).val = a.val) (h1 : (i 1).val = j.val) :
    iblk2 V c 2 t (ix2 a j) = V c main_arg9 i := by
  obtain ⟨-, -, -, -, f0, f1, -⟩ := idx_facts t
  show V c main_arg9 (((cfg2.win 2).blk t).view.emb (ix2 a j)) = V c main_arg9 i
  refine congrArg _ (funext fun d => Fin.ext ?_)
  match d with
  | ⟨0, _⟩ => show win2_2.index t (0 : Fin 2) * 32 + 1 * a.val = (i 0).val; omega
  | ⟨1, _⟩ => show win2_2.index t (1 : Fin 2) * 16 + 1 * j.val = (i 1).val; omega

/-- The second weight matrix's one block is the whole matrix. -/
theorem blk3_apply (c : Dev nD) (t : Fin cfg2.N) (a : Fin 32) (j : Fin 16) (i : S32x16.Idx)
    (h0 : (i 0).val = a.val) (h1 : (i 1).val = j.val) :
    iblk2 V c 3 t (ix2 a j) = V c main_arg10 i := by
  obtain ⟨-, -, -, -, -, -, f0, f1, -⟩ := idx_facts t
  show V c main_arg10 (((cfg2.win 3).blk t).view.emb (ix2 a j)) = V c main_arg10 i
  refine congrArg _ (funext fun d => Fin.ext ?_)
  match d with
  | ⟨0, _⟩ => show win2_3.index t (0 : Fin 2) * 32 + 1 * a.val = (i 0).val; omega
  | ⟨1, _⟩ => show win2_3.index t (1 : Fin 2) * 16 + 1 * j.val = (i 1).val; omega

/-- The bias array's one block is its one row. -/
theorem blk4_apply (c : Dev nD) (t : Fin cfg2.N) (j : Fin 16) (i : S1x16.Idx)
    (h0 : (i 0).val = 0) (h1 : (i 1).val = j.val) :
    iblk2 V c 4 t (ix2 0 j) = V c main_v52 i := by
  obtain ⟨-, -, -, -, -, -, -, -, f0, f1, -⟩ := idx_facts t
  show V c main_v52 (((cfg2.win 4).blk t).view.emb (ix2 0 j)) = V c main_v52 i
  refine congrArg _ (funext fun d => Fin.ext ?_)
  match d with
  | ⟨0, _⟩ => show win2_4.index t (0 : Fin 2) * 1 + 1 * 0 = (i 0).val; omega
  | ⟨1, _⟩ => show win2_4.index t (1 : Fin 2) * 16 + 1 * j.val = (i 1).val; omega

/-! ## From the blocks to the array -/

/-- What point `t` writes back is row tile `t` of the layer function of the region's five input arrays: at
    `(p, j)` of the tile both sides are the logistic of the same two sums plus the same bias entry, the array row
    being `t · 5000 + p` on each side. -/
theorem flushed_eq (c : Dev nD) (t : Fin cfg2.N) :
    (dat2 (F := Ideal) V c).flushed 5 t = ((cfg2.win 5).blk t).view.read (Elt Ideal)
      (Cert.Spec.layer 16 (V c main_v39) (V c main_v51) (V c main_arg9) (V c main_arg10) (fun j => V c main_v52 (ix2 0 j))) := by
  show (cfg2.win 5).cut (grid2.coords t) ((dat2 V c).after 5 t) = _
  rw [after2_5]
  funext y
  obtain ⟨p, j, rfl⟩ : ∃ (p : Fin 5000) (j : Fin 16), y = ix2 p j := ⟨y 0, y 1, eq_ix2 y⟩
  refine (out_apply (iblk2 V c 0 t) (iblk2 V c 1 t) (iblk2 V c 2 t) (iblk2 V c 3 t) (iblk2 V c 4 t) p j).trans ?_
  rw [View.read_apply]
  obtain ⟨-, -, -, -, -, -, -, -, -, -, g0, g1⟩ := idx_facts t
  generalize he : ((cfg2.win 5).blk t).view.emb (ix2 p j) = e
  have e0 : (e 0).val = t.val * 5000 + p.val := by
    rw [← he]; show win2_5.index t (0 : Fin 2) * 5000 + 1 * p.val = _; omega
  have e1 : (e 1).val = j.val := by
    rw [← he]; show win2_5.index t (1 : Fin 2) * 16 + 1 * j.val = _; omega
  show _ = Cert.Spec.layerAt 16 (V c main_v39) (V c main_v51) (V c main_arg9) (V c main_arg10) (fun j => V c main_v52 (ix2 0 j)) (e 0) (e 1)
  unfold Cert.Spec.layerAt
  refine congrArg Ideal.logistic ?_
  refine congrArg₂ (· + ·) (congrArg₂ (· + ·) (Finset.sum_congr rfl fun a _ => ?_) (Finset.sum_congr rfl fun a _ => ?_)) ?_
  · exact congrArg₂ (· * ·) (blk0_apply V c t p a _ e0 rfl) (blk2_apply V c t a j _ rfl e1)
  · exact congrArg₂ (· * ·) (blk1_apply V c t p a _ e0 rfl) (blk3_apply V c t a j _ rfl e1)
  · exact blk4_apply V c t j _ rfl e1

/-- An index of the output array is in point `t`'s block iff each coordinate is in the block's range on its axis. -/
theorem mem_blk (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v53).slice (win2_5.rect t)).set ↔ _
  rw [View.set_slice_whole, Rect.mem_set_unit]
  exact Iff.rfl

/-- Row `r` of the output lies in the block of point `r / 5000`: the twenty row tiles fill the 100000 rows. -/
theorem cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  obtain ⟨t, ht⟩ : ∃ t : Fin cfg2.N, t.val = (i 0).val / 5000 := ⟨⟨(i 0).val / 5000, by show _ < 20; omega⟩, rfl⟩
  obtain ⟨-, -, -, -, -, -, -, -, -, -, g0, g1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 16 ≤ (i 1).val ∧ (i 1).val < win2_5.index t (1 : Fin 2) * 16 + 16; omega

theorem final2 (c : Dev nD) :
    (dat2 (F := Ideal) V c).arrAt 5 cfg2.N
      = Cert.Spec.layer 16 (V c main_v39) (V c main_v51) (V c main_arg9) (V c main_arg10) (fun j => V c main_v52 (ix2 0 j)) := by
  exact (dat2 V c).arrAt_eq_of_cover 5 _ (fun t _ => flushed_eq V c t) cover

end Cert.KernelIdeal.Region2

end
-- ==== Proof.KValue.lean ====
/-
  The idealized kernel program's result array as a function of its argument arrays.

  The program is three regions (one per layer) among stretches of host operations. Every stretch before a region
  does the same thing to the features `h` that region reads: gather the rows of `h` named by the edge sources,
  add them up per destination node, and scale row `i` by the inverse in-degree of node `i` (a column computed
  once, before the first region). Each region then is one layer of `Cert.Spec`. Reading the buffers boundary by
  boundary, from the last region's output back to the launch memory, gives the result as `Cert.Spec.net` of the
  arguments, with that aggregation as its `agg`.
-/
import proofs.«103064_j19688130085786_1_alg».proof.Proof.Gen.KernelIdeal.Frame
import proofs.«103064_j19688130085786_1_alg».proof.Proof.Spec
import proofs.«103064_j19688130085786_1_alg».proof.Proof.KRegion01
import proofs.«103064_j19688130085786_1_alg».proof.Proof.KRegion2
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-! ## The host side's functions -/

/-- The in-degree of every node: one unit added per edge at the edge's destination. -/
def inDeg (x2 : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 x2)
    (broadcastInDim S1600000 ![] bcast_S_S1600000 (constant (F := Ideal) S_ .f32 0x3F800000#32))

/-- The inverse in-degree: `1 / max(deg, 1)` where the degree is positive, `0` elsewhere. -/
def invDeg (x2 : IVec S1600000 32) : FVec Ideal S100000 .f32 :=
  select (cmpf (F := Ideal) .ogt (inDeg x2) (broadcastInDim S100000 ![] bcast_S_S100000 (constant (F := Ideal) S_ .f32 0x00000000#32)))
    (Host.divf (F := Ideal) (broadcastInDim S100000 ![] bcast_S_S100000 (constant (F := Ideal) S_ .f32 0x3F800000#32))
      (maximumf (F := Ideal) (inDeg x2) (broadcastInDim S100000 ![] bcast_S_S100000 (constant (F := Ideal) S_ .f32 0x3F800000#32))))
    (broadcastInDim S100000 ![] bcast_S_S100000 (id (constant (F := Ideal) S_ .f32 0x00000000#32)))

/-- The inverse in-degree as a column. -/
def invDegCol (x2 : IVec S1600000 32) : FVec Ideal S100000x1 .f32 :=
  shapeCast S100000x1 (invDeg x2) shapeCasts_S100000_S100000x1

/-- The neighbour aggregation of features `h` along the edge lists `x1` (sources, a negative entry counted from the
    end) and `x2` (destinations), each row scaled by the column `d`. -/
def aggWith (x1 x2 : IVec S1600000 32) (h : FVec Ideal S100000x32 .f32) (d : FVec Ideal S100000x1 .f32) : FVec Ideal S100000x32 .f32 :=
  mulf (F := Ideal) (Host.scatterAdd (F := Ideal) scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0 x2)
      (Host.gather gather_S100000x32_S1600000x1_S1600000x32_1_0_n_n_0_1_132 h
        (broadcastInDim S1600000x1 ![0] bcast_S1600000_S1600000x1_0
          (select (cmpi .slt x1 (broadcastInDim S1600000 ![] bcast_S_S1600000 (constantI S_ 32 0#32)))
            (addi x1 (broadcastInDim S1600000 ![] bcast_S_S1600000 (constantI S_ 32 100000#32))) x1))))
    (broadcastInDim S100000x32 ![0, 1] bcast_S100000x1_S100000x32_0_1 d)

/-- The aggregation every layer uses. -/
def agg (x1 x2 : IVec S1600000 32) (h : FVec Ideal S100000x32 .f32) : FVec Ideal S100000x32 .f32 :=
  aggWith x1 x2 h (invDegCol x2)

/-- A bias vector viewed as a one-row matrix, read in its row. -/
theorem row_of_vec {D : Nat} (x : (⟨1, ![D]⟩ : Shape).Idx → EReal) (h : (⟨1, ![D]⟩ : Shape).ShapeCasts ⟨2, ![1, D]⟩) (j : Fin D) :
    shapeCast ⟨2, ![1, D]⟩ x h (ix2 0 j) = x (ix1 j) :=
  shapeCast_apply x h (ix2 0 j) (ix1 j) (by
    rw [Shape.rowMajor_val_two, Shape.rowMajor_val_one]; show j.val = 0 * D + j.val; omega)

/-! ## What each stretch of host operations leaves, from any contents `W` -/

section Stretches

variable (W : Valuation τ sig (Elt Ideal))

/-- The buffers each stretch writes. -/
abbrev wr0 : List (Ref sig .tc) := [main_cst, main_v0, main_cst_0, main_v1, main_v2, main_v3, main_cst_1, main_v4, main_v5,
  main_cst_2, main_v6, main_v7, main_cst_3, main_v8, main_v9, main_cst_4]
abbrev wr01 : List (Ref sig .tc) := [main_call0_v0, main_call0_v1, main_v10]
abbrev wr02 : List (Ref sig .tc) := [main_v11, main_c, main_v12, main_v13, main_c_5, main_v14, main_v15, main_v16, main_v17, main_v18,
  main_cst_6, main_v19, main_v20, main_v21, main_v22, main_v23, main_v24]
abbrev wr1 : List (Ref sig .tc) := [main_c_7, main_v26, main_v27, main_c_8, main_v28, main_v29, main_v30, main_v31, main_v32,
  main_cst_9, main_v33, main_v34, main_v35, main_v36, main_v37, main_v38]
abbrev wr2 : List (Ref sig .tc) := [main_c_10, main_v40, main_v41, main_c_11, main_v42, main_v43, main_v44, main_v45, main_v46,
  main_cst_12, main_v47, main_v48, main_v49, main_v50, main_v51, main_v52]

theorem writes0 : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes01 : (hostOps0_1 : List (HloOp τ sig (Elt Ideal))).Forall fun op => op.writes ⊆ (wr01.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes02 : (hostOps0_2 : List (HloOp τ sig (Elt Ideal))).Forall fun op => op.writes ⊆ (wr02.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes1 : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes2 : (hostOps2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer a stretch does not write keeps its contents. -/
theorem keep0 (r : Ref sig .tc) (h : r ∉ wr0) : StableHlo.after (hostOps0 (F := Ideal)) W (Proc.devRef .tc r) = W (Proc.devRef .tc r) :=
  StableHlo.after_of_writes_sub hostOps0 _ writes0 h
theorem keep01 (r : Ref sig .tc) (h : r ∉ wr01) : StableHlo.after (hostOps0_1 (F := Ideal)) W (Proc.devRef .tc r) = W (Proc.devRef .tc r) :=
  StableHlo.after_of_writes_sub hostOps0_1 _ writes01 h
theorem keep02 (r : Ref sig .tc) (h : r ∉ wr02) : StableHlo.after (hostOps0_2 (F := Ideal)) W (Proc.devRef .tc r) = W (Proc.devRef .tc r) :=
  StableHlo.after_of_writes_sub hostOps0_2 _ writes02 h
theorem keep1 (r : Ref sig .tc) (h : r ∉ wr1) : StableHlo.after (hostOps1 (F := Ideal)) W (Proc.devRef .tc r) = W (Proc.devRef .tc r) :=
  StableHlo.after_of_writes_sub hostOps1 _ writes1 h
theorem keep2 (r : Ref sig .tc) (h : r ∉ wr2) : StableHlo.after (hostOps2 (F := Ideal)) W (Proc.devRef .tc r) = W (Proc.devRef .tc r) :=
  StableHlo.after_of_writes_sub hostOps2 _ writes2 h

/-! The first stretch: the degree's comparison, the quotient and the zero it falls back to. -/

set_option maxHeartbeats 4000000 in
theorem s0_v5 : StableHlo.after (hostOps0 (F := Ideal)) W (Proc.devRef .tc main_v5)
    = cmpf (F := Ideal) .ogt (inDeg (W (Proc.devRef .tc main_arg2))) (broadcastInDim S100000 ![] bcast_S_S100000 (constant (F := Ideal) S_ .f32 0x00000000#32)) := by
  after_results_simp
  rfl

set_option maxHeartbeats 4000000 in
theorem s0_v9 : StableHlo.after (hostOps0 (F := Ideal)) W (Proc.devRef .tc main_v9)
    = Host.divf (F := Ideal) (broadcastInDim S100000 ![] bcast_S_S100000 (constant (F := Ideal) S_ .f32 0x3F800000#32))
        (maximumf (F := Ideal) (inDeg (W (Proc.devRef .tc main_arg2))) (broadcastInDim S100000 ![] bcast_S_S100000 (constant (F := Ideal) S_ .f32 0x3F800000#32))) := by
  after_results_simp
  rfl

set_option maxHeartbeats 4000000 in
theorem s0_cst4 : StableHlo.after (hostOps0 (F := Ideal)) W (Proc.devRef .tc main_cst_4) = constant (F := Ideal) S_ .f32 0x00000000#32 := by
  after_results_simp

/-! The second stretch: the choice between the quotient and zero. -/

set_option maxHeartbeats 4000000 in
theorem s01_v10 : StableHlo.after (hostOps0_1 (F := Ideal)) W (Proc.devRef .tc main_v10)
    = select (W (Proc.devRef .tc main_v5)) (W (Proc.devRef .tc main_v9)) (broadcastInDim S100000 ![] bcast_S_S100000 (id (W (Proc.devRef .tc main_cst_4)))) := by
  after_results_simp
  rfl

/-! The stretch before each region: the column, the aggregation of the features the region reads, the bias as a row. -/

set_option maxHeartbeats 4000000 in
theorem s02_v11 : StableHlo.after (hostOps0_2 (F := Ideal)) W (Proc.devRef .tc main_v11)
    = shapeCast S100000x1 (W (Proc.devRef .tc main_v10)) shapeCasts_S100000_S100000x1 := by
  after_results_simp
  rfl

set_option maxHeartbeats 4000000 in
theorem s02_v23 : StableHlo.after (hostOps0_2 (F := Ideal)) W (Proc.devRef .tc main_v23)
    = aggWith (W (Proc.devRef .tc main_arg1)) (W (Proc.devRef .tc main_arg2)) (W (Proc.devRef .tc main_arg0))
        (shapeCast S100000x1 (W (Proc.devRef .tc main_v10)) shapeCasts_S100000_S100000x1) := by
  after_results_simp
  rfl

set_option maxHeartbeats 4000000 in
theorem s02_v24 : StableHlo.after (hostOps0_2 (F := Ideal)) W (Proc.devRef .tc main_v24)
    = shapeCast S1x32 (W (Proc.devRef .tc main_arg5)) shapeCasts_S32_S1x32 := by
  after_results_simp
  rfl

set_option maxHeartbeats 4000000 in
theorem s1_v37 : StableHlo.after (hostOps1 (F := Ideal)) W (Proc.devRef .tc main_v37)
    = aggWith (W (Proc.devRef .tc main_arg1)) (W (Proc.devRef .tc main_arg2)) (W (Proc.devRef .tc main_v25)) (W (Proc.devRef .tc main_v11)) := by
  after_results_simp
  rfl

set_option maxHeartbeats 4000000 in
theorem s1_v38 : StableHlo.after (hostOps1 (F := Ideal)) W (Proc.devRef .tc main_v38)
    = shapeCast S1x32 (W (Proc.devRef .tc main_arg8)) shapeCasts_S32_S1x32 := by
  after_results_simp
  rfl

set_option maxHeartbeats 4000000 in
theorem s2_v51 : StableHlo.after (hostOps2 (F := Ideal)) W (Proc.devRef .tc main_v51)
    = aggWith (W (Proc.devRef .tc main_arg1)) (W (Proc.devRef .tc main_arg2)) (W (Proc.devRef .tc main_v39)) (W (Proc.devRef .tc main_v11)) := by
  after_results_simp
  rfl

set_option maxHeartbeats 4000000 in
theorem s2_v52 : StableHlo.after (hostOps2 (F := Ideal)) W (Proc.devRef .tc main_v52)
    = shapeCast S1x16 (W (Proc.devRef .tc main_arg11)) shapeCasts_S16_S1x16 := by
  after_results_simp
  rfl

end Stretches

/-! ## The buffers at each boundary of the run, back to the launch memory -/

section Run

variable (m : (ℓ : Loc nD τ sig) → Buf (Elt Ideal) ℓ) (ρ : Dev nD → PrngReg) (c : Dev nD)

/-- A buffer the first two stretches do not write holds its launch contents after them. -/
theorem W2_arg (r : Ref sig .tc) (h0 : r ∉ wr0) (h1 : r ∉ wr01) :
    W2 m ρ c (Proc.devRef .tc r) = m ((c : Thread nD τ).loc r) :=
  (keep01 (W1 m ρ c) r h1).trans (keep0 (W0 m ρ c) r h0)

/-- After the second stretch the inverse in-degree of the destination list is in place. -/
theorem W2_v10 : W2 m ρ c (Proc.devRef .tc main_v10) = invDeg (m ((c : Thread nD τ).loc main_arg2)) := by
  refine (s01_v10 (W1 m ρ c)).trans ?_
  rw [show W1 m ρ c (Proc.devRef .tc main_v5) = _ from s0_v5 (W0 m ρ c),
    show W1 m ρ c (Proc.devRef .tc main_v9) = _ from s0_v9 (W0 m ρ c),
    show W1 m ρ c (Proc.devRef .tc main_cst_4) = _ from s0_cst4 (W0 m ρ c)]
  rfl

/-- A buffer no stretch before the first region writes holds its launch contents at that region's entry. -/
theorem W3_arg (r : Ref sig .tc) (h0 : r ∉ wr0) (h1 : r ∉ wr01) (h2 : r ∉ wr02) :
    W3 m ρ c (Proc.devRef .tc r) = m ((c : Thread nD τ).loc r) :=
  (keep02 (W2 m ρ c) r h2).trans (W2_arg m ρ c r h0 h1)

theorem W3_v11 : W3 m ρ c (Proc.devRef .tc main_v11) = invDegCol (m ((c : Thread nD τ).loc main_arg2)) := by
  refine (s02_v11 (W2 m ρ c)).trans ?_
  rw [W2_v10]
  rfl

theorem W3_v23 : W3 m ρ c (Proc.devRef .tc main_v23)
    = agg (m ((c : Thread nD τ).loc main_arg1)) (m ((c : Thread nD τ).loc main_arg2)) (m ((c : Thread nD τ).loc main_arg0)) := by
  refine (s02_v23 (W2 m ρ c)).trans ?_
  rw [W2_v10, W2_arg m ρ c main_arg1 (by decide) (by decide), W2_arg m ρ c main_arg2 (by decide) (by decide),
    W2_arg m ρ c main_arg0 (by decide) (by decide)]
  rfl

theorem W3_v24 : W3 m ρ c (Proc.devRef .tc main_v24)
    = shapeCast S1x32 (m ((c : Thread nD τ).loc main_arg5)) shapeCasts_S32_S1x32 := by
  refine (s02_v24 (W2 m ρ c)).trans ?_
  rw [W2_arg m ρ c main_arg5 (by decide) (by decide)]

end Run

/-! ## The three layers, and the result -/

section Layers

variable (m : (ℓ : Loc nD τ sig) → Buf (Elt Ideal) ℓ) (ρ : Dev nD → PrngReg) (c : Dev nD)

/-- The first layer's output as a function of the argument arrays. -/
def layer1 : (⟨2, ![100000, 32]⟩ : Shape).Idx → EReal :=
  Cert.Spec.layer 32 (m ((c : Thread nD τ).loc main_arg0))
    (agg (m ((c : Thread nD τ).loc main_arg1)) (m ((c : Thread nD τ).loc main_arg2)) (m ((c : Thread nD τ).loc main_arg0)))
    (m ((c : Thread nD τ).loc main_arg3)) (m ((c : Thread nD τ).loc main_arg4))
    (fun j => (m ((c : Thread nD τ).loc main_arg5) : (⟨1, ![32]⟩ : Shape).Idx → EReal) (ix1 j))

/-- The second layer's output. -/
def layer2 : (⟨2, ![100000, 32]⟩ : Shape).Idx → EReal :=
  Cert.Spec.layer 32 (layer1 m c)
    (agg (m ((c : Thread nD τ).loc main_arg1)) (m ((c : Thread nD τ).loc main_arg2)) (layer1 m c))
    (m ((c : Thread nD τ).loc main_arg6)) (m ((c : Thread nD τ).loc main_arg7))
    (fun j => (m ((c : Thread nD τ).loc main_arg8) : (⟨1, ![32]⟩ : Shape).Idx → EReal) (ix1 j))

/-- The third layer's output: the program's result. -/
def layer3 : (⟨2, ![100000, 16]⟩ : Shape).Idx → EReal :=
  Cert.Spec.layer 16 (layer2 m c)
    (agg (m ((c : Thread nD τ).loc main_arg1)) (m ((c : Thread nD τ).loc main_arg2)) (layer2 m c))
    (m ((c : Thread nD τ).loc main_arg9)) (m ((c : Thread nD τ).loc main_arg10))
    (fun j => (m ((c : Thread nD τ).loc main_arg11) : (⟨1, ![16]⟩ : Shape).Idx → EReal) (ix1 j))

/-- The three layers are the network of `Cert.Spec` with the kernel program's aggregation. -/
theorem layer3_eq_net : layer3 m c
    = Cert.Spec.net (agg (m ((c : Thread nD τ).loc main_arg1)) (m ((c : Thread nD τ).loc main_arg2)))
        (m ((c : Thread nD τ).loc main_arg0))
        (m ((c : Thread nD τ).loc main_arg3)) (m ((c : Thread nD τ).loc main_arg4))
        (fun j => (m ((c : Thread nD τ).loc main_arg5) : (⟨1, ![32]⟩ : Shape).Idx → EReal) (ix1 j))
        (m ((c : Thread nD τ).loc main_arg6)) (m ((c : Thread nD τ).loc main_arg7))
        (fun j => (m ((c : Thread nD τ).loc main_arg8) : (⟨1, ![32]⟩ : Shape).Idx → EReal) (ix1 j))
        (m ((c : Thread nD τ).loc main_arg9)) (m ((c : Thread nD τ).loc main_arg10))
        (fun j => (m ((c : Thread nD τ).loc main_arg11) : (⟨1, ![16]⟩ : Shape).Idx → EReal) (ix1 j)) := rfl

/-! ### Region 0 -/

theorem W4_v25 : W4 m ρ c (Proc.devRef .tc main_v25) = layer1 m c := by
  refine (W4_arr m ρ c 5).trans ?_
  rw [Cert.KernelIdeal.Region01.final0 (V3 m ρ) c]
  rw [show V3 m ρ c main_arg0 = _ from W3_arg m ρ c main_arg0 (by decide) (by decide) (by decide),
    show V3 m ρ c main_v23 = _ from W3_v23 m ρ c,
    show V3 m ρ c main_arg3 = _ from W3_arg m ρ c main_arg3 (by decide) (by decide) (by decide),
    show V3 m ρ c main_arg4 = _ from W3_arg m ρ c main_arg4 (by decide) (by decide) (by decide),
    show V3 m ρ c main_v24 = _ from W3_v24 m ρ c]
  exact congrArg _ (funext fun j => row_of_vec _ _ j)

/-- A buffer that is neither written by a stretch before region 1 nor an array of region 0 holds its launch contents
    after region 0. -/
theorem W4_arg (r : Ref sig .tc) (a0 : ∀ w, Pipeline.arrRef spec0 w ≠ r) (h0 : r ∉ wr0) (h1 : r ∉ wr01) (h2 : r ∉ wr02) :
    W4 m ρ c (Proc.devRef .tc r) = m ((c : Thread nD τ).loc r) :=
  (W4_of_ne m ρ c r a0).trans (W3_arg m ρ c r h0 h1 h2)

theorem W4_v11 : W4 m ρ c (Proc.devRef .tc main_v11) = invDegCol (m ((c : Thread nD τ).loc main_arg2)) :=
  (W4_of_ne m ρ c main_v11 (by decide)).trans (W3_v11 m ρ c)

/-! ### Region 1 -/

theorem W5_v25 : W5 m ρ c (Proc.devRef .tc main_v25) = layer1 m c :=
  (keep1 (W4 m ρ c) main_v25 (by decide)).trans (W4_v25 m ρ c)

theorem W5_v37 : W5 m ρ c (Proc.devRef .tc main_v37)
    = agg (m ((c : Thread nD τ).loc main_arg1)) (m ((c : Thread nD τ).loc main_arg2)) (layer1 m c) := by
  refine (s1_v37 (W4 m ρ c)).trans ?_
  rw [W4_v25, W4_v11, W4_arg m ρ c main_arg1 (by decide) (by decide) (by decide) (by decide),
    W4_arg m ρ c main_arg2 (by decide) (by decide) (by decide) (by decide)]
  rfl

theorem W5_arg (r : Ref sig .tc) (a0 : ∀ w, Pipeline.arrRef spec0 w ≠ r) (h0 : r ∉ wr0) (h1 : r ∉ wr01) (h2 : r ∉ wr02) (h3 : r ∉ wr1) :
    W5 m ρ c (Proc.devRef .tc r) = m ((c : Thread nD τ).loc r) :=
  (keep1 (W4 m ρ c) r h3).trans (W4_arg m ρ c r a0 h0 h1 h2)

theorem W5_v38 : W5 m ρ c (Proc.devRef .tc main_v38)
    = shapeCast S1x32 (m ((c : Thread nD τ).loc main_arg8)) shapeCasts_S32_S1x32 := by
  refine (s1_v38 (W4 m ρ c)).trans ?_
  rw [W4_arg m ρ c main_arg8 (by decide) (by decide) (by decide) (by decide)]

theorem W6_v39 : W6 m ρ c (Proc.devRef .tc main_v39) = layer2 m c := by
  refine (W6_arr m ρ c 5).trans ?_
  rw [Cert.KernelIdeal.Region01.final1 (V5 m ρ) c]
  rw [show V5 m ρ c main_v25 = _ from W5_v25 m ρ c,
    show V5 m ρ c main_v37 = _ from W5_v37 m ρ c,
    show V5 m ρ c main_arg6 = _ from W5_arg m ρ c main_arg6 (by decide) (by decide) (by decide) (by decide) (by decide),
    show V5 m ρ c main_arg7 = _ from W5_arg m ρ c main_arg7 (by decide) (by decide) (by decide) (by decide) (by decide),
    show V5 m ρ c main_v38 = _ from W5_v38 m ρ c]
  exact congrArg _ (funext fun j => row_of_vec _ _ j)

theorem W6_arg (r : Ref sig .tc) (a0 : ∀ w, Pipeline.arrRef spec0 w ≠ r) (a1 : ∀ w, Pipeline.arrRef spec1 w ≠ r)
    (h0 : r ∉ wr0) (h1 : r ∉ wr01) (h2 : r ∉ wr02) (h3 : r ∉ wr1) :
    W6 m ρ c (Proc.devRef .tc r) = m ((c : Thread nD τ).loc r) :=
  (W6_of_ne m ρ c r a1).trans (W5_arg m ρ c r a0 h0 h1 h2 h3)

theorem W6_v11 : W6 m ρ c (Proc.devRef .tc main_v11) = invDegCol (m ((c : Thread nD τ).loc main_arg2)) :=
  (W6_of_ne m ρ c main_v11 (by decide)).trans ((keep1 (W4 m ρ c) main_v11 (by decide)).trans (W4_v11 m ρ c))

/-! ### Region 2 -/

theorem W7_v39 : W7 m ρ c (Proc.devRef .tc main_v39) = layer2 m c :=
  (keep2 (W6 m ρ c) main_v39 (by decide)).trans (W6_v39 m ρ c)

theorem W7_v51 : W7 m ρ c (Proc.devRef .tc main_v51)
    = agg (m ((c : Thread nD τ).loc main_arg1)) (m ((c : Thread nD τ).loc main_arg2)) (layer2 m c) := by
  refine (s2_v51 (W6 m ρ c)).trans ?_
  rw [W6_v39, W6_v11, W6_arg m ρ c main_arg1 (by decide) (by decide) (by decide) (by decide) (by decide) (by decide),
    W6_arg m ρ c main_arg2 (by decide) (by decide) (by decide) (by decide) (by decide) (by decide)]
  rfl

theorem W7_arg (r : Ref sig .tc) (a0 : ∀ w, Pipeline.arrRef spec0 w ≠ r) (a1 : ∀ w, Pipeline.arrRef spec1 w ≠ r)
    (h0 : r ∉ wr0) (h1 : r ∉ wr01) (h2 : r ∉ wr02) (h3 : r ∉ wr1) (h4 : r ∉ wr2) :
    W7 m ρ c (Proc.devRef .tc r) = m ((c : Thread nD τ).loc r) :=
  (keep2 (W6 m ρ c) r h4).trans (W6_arg m ρ c r a0 a1 h0 h1 h2 h3)

theorem W7_v52 : W7 m ρ c (Proc.devRef .tc main_v52)
    = shapeCast S1x16 (m ((c : Thread nD τ).loc main_arg11)) shapeCasts_S16_S1x16 := by
  refine (s2_v52 (W6 m ρ c)).trans ?_
  rw [W6_arg m ρ c main_arg11 (by decide) (by decide) (by decide) (by decide) (by decide) (by decide)]

/-- THE RESULT: at the last boundary the result buffer holds the third layer's output. -/
theorem W8_v53 : W8 m ρ c (Proc.devRef .tc main_v53) = layer3 m c := by
  refine (W8_arr m ρ c 5).trans ?_
  rw [Cert.KernelIdeal.Region2.final2 (V7 m ρ) c]
  rw [show V7 m ρ c main_v39 = _ from W7_v39 m ρ c,
    show V7 m ρ c main_v51 = _ from W7_v51 m ρ c,
    show V7 m ρ c main_arg9 = _ from W7_arg m ρ c main_arg9 (by decide) (by decide) (by decide) (by decide) (by decide) (by decide) (by decide),
    show V7 m ρ c main_arg10 = _ from W7_arg m ρ c main_arg10 (by decide) (by decide) (by decide) (by decide) (by decide) (by decide) (by decide),
    show V7 m ρ c main_v52 = _ from W7_v52 m ρ c]
  exact congrArg _ (funext fun j => row_of_vec _ _ j)

end Layers

end Cert.KernelIdeal.KValue

end
-- ==== Proof.RefValue.lean ====
import proofs.«103064_j19688130085786_1_alg».proof.Proof.RefRead
import proofs.«103064_j19688130085786_1_alg».proof.Proof.Spec
import proofs.«103064_j19688130085786_1_alg».proof.Proof.LibDot2
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-- The reference's neighbour aggregation of features `h` along the edge lists `x1` (sources), `x2` (destinations):
    gather the source rows, add them up per destination node, scale each row by the node's inverse in-degree. -/
def agg (x1 x2 : IVec S1600000 32) (h : FVec Ideal S100000x32 .f32) : FVec Ideal S100000x32 .f32 :=
  mulf (F := Ideal) (Host.scatterAdd (F := Ideal) scatter_S100000x32_S1600000x1_S1600000x32_1_0_0_1 (val_main_v18 (F := Ideal)) (val_main_v19 (F := Ideal) x2)
      (Host.gather gather_S100000x32_S1600000x1_S1600000x32_1_0_n_n_0_1_132 h (val_main_v16 (F := Ideal) x1)))
    (val_main_v22 (F := Ideal) x2)

/-- The word of the float one, read on the extended reals. -/
theorem one_word : (FloatOps.ofBits (F := Ideal) .f32 0x3F800000#32 : Ideal .f32) = 1 :=
  IdealRules.sign_bit.ideal_onePat .f32

/-- The logistic function as the reference spells it: one over one plus the exponential of the negation. -/
theorem logistic_spelt (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  rw [one_word]
  rfl

/-- A bias of 32 entries broadcast first to one row, then down the 100000 rows, read at `(p, j)`. -/
theorem bias32_apply (b : FVec Ideal S32 .f32) (p : Fin 100000) (j : Fin 32) :
    broadcastInDim S100000x32 ![0, 1] bcast_S1x32_S100000x32_0_1 (broadcastInDim S1x32 ![1] bcast_S32_S1x32_1 b) (ix2 p j)
      = b (ix1 j) := by
  rw [broadcastInDim_apply _ bcast_S1x32_S100000x32_0_1 _ (ix2 p j) (ix2 (0 : Fin 1) j) (fun a => match a with
    | ⟨0, _⟩ => by show 0 = if (1 : Nat) = 1 then 0 else p.val; rw [if_pos rfl]
    | ⟨1, _⟩ => by show j.val = if (32 : Nat) = 1 then 0 else j.val; rw [if_neg (by decide)])]
  exact broadcastInDim_apply _ bcast_S32_S1x32_1 b (ix2 (0 : Fin 1) j) (ix1 j) (fun a => match a with
    | ⟨0, _⟩ => by show j.val = if (32 : Nat) = 1 then 0 else j.val; rw [if_neg (by decide)])

/-- One layer of width 32 as the reference writes it, over any input features `h` and aggregated features `hn`:
    two matrix products added, the bias added along the rows, and then one over one plus the exponential of the negation. -/
def refLayer32 (h hn : FVec Ideal S100000x32 .f32) (ws wn : FVec Ideal S32x32 .f32) (b : FVec Ideal S32 .f32) :
    FVec Ideal S100000x32 .f32 :=
  Host.divf (F := Ideal) (broadcastInDim S100000x32 ![] bcast_S_S100000x32 (constant (F := Ideal) S_ .f32 0x3F800000#32))
    (addf (F := Ideal) (broadcastInDim S100000x32 ![] bcast_S_S100000x32 (constant (F := Ideal) S_ .f32 0x3F800000#32))
      (Host.exp (F := Ideal) (Host.negf (F := Ideal) (addf (F := Ideal)
        (addf (F := Ideal) (Host.dotGeneral (F := Ideal) dot_S100000x32_S32x32_S100000x32_1_0_0_1_n_n none h ws)
          (Host.dotGeneral (F := Ideal) dot_S100000x32_S32x32_S100000x32_1_0_0_1_n_n none hn wn))
        (broadcastInDim S100000x32 ![0, 1] bcast_S1x32_S100000x32_0_1 (broadcastInDim S1x32 ![1] bcast_S32_S1x32_1 b))))))

/-- The reference's layer of width 32 is the specification's layer: at row `p` and column `j` each product is the
    sum over the 32 contracted entries, the bias is its `j`-th entry, and the last three operations spell the logistic function. -/
theorem refLayer32_eq (h hn : FVec Ideal S100000x32 .f32) (ws wn : FVec Ideal S32x32 .f32) (b : FVec Ideal S32 .f32) :
    refLayer32 h hn ws wn b = Cert.Spec.layer 32 h hn ws wn (fun j => b (ix1 j)) := by
  funext i
  obtain ⟨p, j, rfl⟩ : ∃ (p : Fin 100000) (j : Fin 32), i = ix2 p j := ⟨i 0, i 1, eq_ix2 i⟩
  rw [Cert.Spec.layer_ix2]
  unfold Cert.Spec.layerAt
  rw [← logistic_spelt]
  have hA : broadcastInDim S100000x32 ![] bcast_S_S100000x32 (constant (F := Ideal) S_ .f32 0x3F800000#32) (ix2 p j)
      = FloatOps.ofBits .f32 0x3F800000#32 := rfl
  have hd1 : Host.dotGeneral (F := Ideal) dot_S100000x32_S32x32_S100000x32_1_0_0_1_n_n none h ws (ix2 p j)
      = ∑ a : Fin 32, h (ix2 p a) * ws (ix2 a j) := by
    simp only [Host.dotGeneral]
    rw [Ideal.dotGeneral_apply]
    exact Cert.Lib.Dot2.contraction_ix2 dot_S100000x32_S32x32_S100000x32_1_0_0_1_n_n rfl rfl
      lhs_main_v24_0 lhs_main_v24_1 rhs_main_v24_0 rhs_main_v24_1 h ws p j
  have hd2 : Host.dotGeneral (F := Ideal) dot_S100000x32_S32x32_S100000x32_1_0_0_1_n_n none hn wn (ix2 p j)
      = ∑ a : Fin 32, hn (ix2 p a) * wn (ix2 a j) := by
    simp only [Host.dotGeneral]
    rw [Ideal.dotGeneral_apply]
    exact Cert.Lib.Dot2.contraction_ix2 dot_S100000x32_S32x32_S100000x32_1_0_0_1_n_n rfl rfl
      lhs_main_v24_0 lhs_main_v24_1 rhs_main_v24_0 rhs_main_v24_1 hn wn p j
  show FloatOps.hostDivf
      (broadcastInDim S100000x32 ![] bcast_S_S100000x32 (constant (F := Ideal) S_ .f32 0x3F800000#32) (ix2 p j))
      (FloatOps.addf (broadcastInDim S100000x32 ![] bcast_S_S100000x32 (constant (F := Ideal) S_ .f32 0x3F800000#32) (ix2 p j))
        (FloatOps.hostUnary .exp (FloatOps.hostNegf (FloatOps.addf
          (FloatOps.addf (Host.dotGeneral (F := Ideal) dot_S100000x32_S32x32_S100000x32_1_0_0_1_n_n none h ws (ix2 p j))
            (Host.dotGeneral (F := Ideal) dot_S100000x32_S32x32_S100000x32_1_0_0_1_n_n none hn wn (ix2 p j)))
          (broadcastInDim S100000x32 ![0, 1] bcast_S1x32_S100000x32_0_1 (broadcastInDim S1x32 ![1] bcast_S32_S1x32_1 b) (ix2 p j)))))) = _
  rw [hA, hd1, hd2, bias32_apply]
  rfl

/-- A bias of 16 entries broadcast first to one row, then down the 100000 rows, read at `(p, j)`. -/
theorem bias16_apply (b : FVec Ideal S16 .f32) (p : Fin 100000) (j : Fin 16) :
    broadcastInDim S100000x16 ![0, 1] bcast_S1x16_S100000x16_0_1 (broadcastInDim S1x16 ![1] bcast_S16_S1x16_1 b) (ix2 p j)
      = b (ix1 j) := by
  rw [broadcastInDim_apply _ bcast_S1x16_S100000x16_0_1 _ (ix2 p j) (ix2 (0 : Fin 1) j) (fun a => match a with
    | ⟨0, _⟩ => by show 0 = if (1 : Nat) = 1 then 0 else p.val; rw [if_pos rfl]
    | ⟨1, _⟩ => by show j.val = if (16 : Nat) = 1 then 0 else j.val; rw [if_neg (by decide)])]
  exact broadcastInDim_apply _ bcast_S16_S1x16_1 b (ix2 (0 : Fin 1) j) (ix1 j) (fun a => match a with
    | ⟨0, _⟩ => by show j.val = if (16 : Nat) = 1 then 0 else j.val; rw [if_neg (by decide)])

/-- One layer of width 16 as the reference writes it, over any input features `h` and aggregated features `hn`:
    two matrix products added, the bias added along the rows, and then one over one plus the exponential of the negation. -/
def refLayer16 (h hn : FVec Ideal S100000x32 .f32) (ws wn : FVec Ideal S32x16 .f32) (b : FVec Ideal S16 .f32) :
    FVec Ideal S100000x16 .f32 :=
  Host.divf (F := Ideal) (broadcastInDim S100000x16 ![] bcast_S_S100000x16 (constant (F := Ideal) S_ .f32 0x3F800000#32))
    (addf (F := Ideal) (broadcastInDim S100000x16 ![] bcast_S_S100000x16 (constant (F := Ideal) S_ .f32 0x3F800000#32))
      (Host.exp (F := Ideal) (Host.negf (F := Ideal) (addf (F := Ideal)
        (addf (F := Ideal) (Host.dotGeneral (F := Ideal) dot_S100000x32_S32x16_S100000x16_1_0_0_1_n_n none h ws)
          (Host.dotGeneral (F := Ideal) dot_S100000x32_S32x16_S100000x16_1_0_0_1_n_n none hn wn))
        (broadcastInDim S100000x16 ![0, 1] bcast_S1x16_S100000x16_0_1 (broadcastInDim S1x16 ![1] bcast_S16_S1x16_1 b))))))

/-- The reference's layer of width 16 is the specification's layer: at row `p` and column `j` each product is the
    sum over the 32 contracted entries, the bias is its `j`-th entry, and the last three operations spell the logistic function. -/
theorem refLayer16_eq (h hn : FVec Ideal S100000x32 .f32) (ws wn : FVec Ideal S32x16 .f32) (b : FVec Ideal S16 .f32) :
    refLayer16 h hn ws wn b = Cert.Spec.layer 16 h hn ws wn (fun j => b (ix1 j)) := by
  funext i
  obtain ⟨p, j, rfl⟩ : ∃ (p : Fin 100000) (j : Fin 16), i = ix2 p j := ⟨i 0, i 1, eq_ix2 i⟩
  rw [Cert.Spec.layer_ix2]
  unfold Cert.Spec.layerAt
  rw [← logistic_spelt]
  have hA : broadcastInDim S100000x16 ![] bcast_S_S100000x16 (constant (F := Ideal) S_ .f32 0x3F800000#32) (ix2 p j)
      = FloatOps.ofBits .f32 0x3F800000#32 := rfl
  have hd1 : Host.dotGeneral (F := Ideal) dot_S100000x32_S32x16_S100000x16_1_0_0_1_n_n none h ws (ix2 p j)
      = ∑ a : Fin 32, h (ix2 p a) * ws (ix2 a j) := by
    simp only [Host.dotGeneral]
    rw [Ideal.dotGeneral_apply]
    exact Cert.Lib.Dot2.contraction_ix2 dot_S100000x32_S32x16_S100000x16_1_0_0_1_n_n rfl rfl
      lhs_main_v74_0 lhs_main_v74_1 rhs_main_v74_0 rhs_main_v74_1 h ws p j
  have hd2 : Host.dotGeneral (F := Ideal) dot_S100000x32_S32x16_S100000x16_1_0_0_1_n_n none hn wn (ix2 p j)
      = ∑ a : Fin 32, hn (ix2 p a) * wn (ix2 a j) := by
    simp only [Host.dotGeneral]
    rw [Ideal.dotGeneral_apply]
    exact Cert.Lib.Dot2.contraction_ix2 dot_S100000x32_S32x16_S100000x16_1_0_0_1_n_n rfl rfl
      lhs_main_v74_0 lhs_main_v74_1 rhs_main_v74_0 rhs_main_v74_1 hn wn p j
  show FloatOps.hostDivf
      (broadcastInDim S100000x16 ![] bcast_S_S100000x16 (constant (F := Ideal) S_ .f32 0x3F800000#32) (ix2 p j))
      (FloatOps.addf (broadcastInDim S100000x16 ![] bcast_S_S100000x16 (constant (F := Ideal) S_ .f32 0x3F800000#32) (ix2 p j))
        (FloatOps.hostUnary .exp (FloatOps.hostNegf (FloatOps.addf
          (FloatOps.addf (Host.dotGeneral (F := Ideal) dot_S100000x32_S32x16_S100000x16_1_0_0_1_n_n none h ws (ix2 p j))
            (Host.dotGeneral (F := Ideal) dot_S100000x32_S32x16_S100000x16_1_0_0_1_n_n none hn wn (ix2 p j)))
          (broadcastInDim S100000x16 ![0, 1] bcast_S1x16_S100000x16_0_1 (broadcastInDim S1x16 ![1] bcast_S16_S1x16_1 b) (ix2 p j)))))) = _
  rw [hA, hd1, hd2, bias16_apply]
  rfl

/-! ### The reference's three layers are that term

Each identity below holds by unfolding a dozen small stage definitions: nothing is evaluated. The aggregation's
pieces are printed three times under different stage numbers but with the same text. -/

/-- The gather's index column of the second layer is the first layer's. -/
theorem v41_eq (x1 : IVec S1600000 32) : val_main_v41 (F := Ideal) x1 = val_main_v16 (F := Ideal) x1 := rfl
/-- The gather's index column of the third layer is the first layer's. -/
theorem v66_eq (x1 : IVec S1600000 32) : val_main_v66 (F := Ideal) x1 = val_main_v16 (F := Ideal) x1 := rfl
/-- The scatter's zero array of the second layer is the first layer's. -/
theorem v43_eq : val_main_v43 (F := Ideal) = val_main_v18 (F := Ideal) := rfl
/-- The scatter's zero array of the third layer is the first layer's. -/
theorem v68_eq : val_main_v68 (F := Ideal) = val_main_v18 (F := Ideal) := rfl
/-- The scatter's index column of the second layer is the first layer's. -/
theorem v44_eq (x2 : IVec S1600000 32) : val_main_v44 (F := Ideal) x2 = val_main_v19 (F := Ideal) x2 := rfl
/-- The scatter's index column of the third layer is the first layer's. -/
theorem v69_eq (x2 : IVec S1600000 32) : val_main_v69 (F := Ideal) x2 = val_main_v19 (F := Ideal) x2 := rfl
/-- The broadcast inverse in-degree of the second layer is the first layer's. -/
theorem v47_eq (x2 : IVec S1600000 32) : val_main_v47 (F := Ideal) x2 = val_main_v22 (F := Ideal) x2 := rfl
/-- The broadcast inverse in-degree of the third layer is the first layer's. -/
theorem v72_eq (x2 : IVec S1600000 32) : val_main_v72 (F := Ideal) x2 = val_main_v22 (F := Ideal) x2 := rfl

/-- The first layer's aggregated features. -/
theorem v23_eq (x0 : FVec Ideal S100000x32 .f32) (x1 x2 : IVec S1600000 32) :
    val_main_v23 (F := Ideal) x0 x1 x2 = agg x1 x2 x0 := rfl

/-- The second layer's aggregated features: the aggregation of the first layer's output. -/
theorem v48_eq (x0 : FVec Ideal S100000x32 .f32) (x1 x2 : IVec S1600000 32) (x3 x4 : FVec Ideal S32x32 .f32) (x5 : FVec Ideal S32 .f32) :
    val_main_v48 (F := Ideal) x0 x1 x2 x3 x4 x5 = agg x1 x2 (val_main_v35 (F := Ideal) x0 x1 x2 x3 x4 x5) := by
  unfold val_main_v48 val_main_v45 val_main_v42 agg
  rw [v41_eq, v43_eq, v44_eq, v47_eq]

/-- The third layer's aggregated features: the aggregation of the second layer's output. -/
theorem v73_eq (x0 : FVec Ideal S100000x32 .f32) (x1 x2 : IVec S1600000 32) (x3 x4 : FVec Ideal S32x32 .f32) (x5 : FVec Ideal S32 .f32) (x6 x7 : FVec Ideal S32x32 .f32) (x8 : FVec Ideal S32 .f32) :
    val_main_v73 (F := Ideal) x0 x1 x2 x3 x4 x5 x6 x7 x8 = agg x1 x2 (val_main_v60 (F := Ideal) x0 x1 x2 x3 x4 x5 x6 x7 x8) := by
  unfold val_main_v73 val_main_v70 val_main_v67 agg
  rw [v66_eq, v68_eq, v69_eq, v72_eq]

/-- The first layer. -/
theorem v35_eq (x0 : FVec Ideal S100000x32 .f32) (x1 x2 : IVec S1600000 32) (x3 x4 : FVec Ideal S32x32 .f32) (x5 : FVec Ideal S32 .f32) :
    val_main_v35 (F := Ideal) x0 x1 x2 x3 x4 x5 = refLayer32 x0 (val_main_v23 (F := Ideal) x0 x1 x2) x3 x4 x5 := rfl

/-- The second layer. -/
theorem v60_eq (x0 : FVec Ideal S100000x32 .f32) (x1 x2 : IVec S1600000 32) (x3 x4 : FVec Ideal S32x32 .f32) (x5 : FVec Ideal S32 .f32) (x6 x7 : FVec Ideal S32x32 .f32) (x8 : FVec Ideal S32 .f32) :
    val_main_v60 (F := Ideal) x0 x1 x2 x3 x4 x5 x6 x7 x8
      = refLayer32 (val_main_v35 (F := Ideal) x0 x1 x2 x3 x4 x5) (val_main_v48 (F := Ideal) x0 x1 x2 x3 x4 x5) x6 x7 x8 := rfl

/-- The third layer. -/
theorem v85_eq (x0 : FVec Ideal S100000x32 .f32) (x1 x2 : IVec S1600000 32) (x3 x4 : FVec Ideal S32x32 .f32) (x5 : FVec Ideal S32 .f32) (x6 x7 : FVec Ideal S32x32 .f32) (x8 : FVec Ideal S32 .f32) (x9 x10 : FVec Ideal S32x16 .f32) (x11 : FVec Ideal S16 .f32) :
    val_main_v85 (F := Ideal) x0 x1 x2 x3 x4 x5 x6 x7 x8 x9 x10 x11
      = refLayer16 (val_main_v60 (F := Ideal) x0 x1 x2 x3 x4 x5 x6 x7 x8) (val_main_v73 (F := Ideal) x0 x1 x2 x3 x4 x5 x6 x7 x8) x9 x10 x11 := rfl

theorem ref_value (x0 : (⟨S100000x32, .f32⟩ : BufTy).Contents (Elt Ideal)) (x1 x2 : (⟨S1600000, .i32⟩ : BufTy).Contents (Elt Ideal))
    (x3 x4 : (⟨S32x32, .f32⟩ : BufTy).Contents (Elt Ideal)) (x5 : (⟨S32, .f32⟩ : BufTy).Contents (Elt Ideal))
    (x6 x7 : (⟨S32x32, .f32⟩ : BufTy).Contents (Elt Ideal)) (x8 : (⟨S32, .f32⟩ : BufTy).Contents (Elt Ideal))
    (x9 x10 : (⟨S32x16, .f32⟩ : BufTy).Contents (Elt Ideal)) (x11 : (⟨S16, .f32⟩ : BufTy).Contents (Elt Ideal)) :
    val_main_v85 (F := Ideal) x0 x1 x2 x3 x4 x5 x6 x7 x8 x9 x10 x11
      = Cert.Spec.net (agg x1 x2) x0 x3 x4 (fun j => x5 (ix1 j)) x6 x7 (fun j => x8 (ix1 j)) x9 x10 (fun j => x11 (ix1 j)) := by
  -- from the last layer inwards: each layer's output is the specification's layer of the previous layer's output
  rw [v85_eq, v73_eq, refLayer16_eq]
  rw [v60_eq, v48_eq, refLayer32_eq]
  rw [v35_eq, v23_eq, refLayer32_eq]
  rfl

end Cert.ReferenceIdeal.RefValue

end
-- ==== Proof.Bridge.lean ====
/-
  The two programs aggregate neighbour features by the same function.

  Both gather the rows of `h` named by the edge sources, add them up per destination node and multiply row `p` by the
  inverse in-degree of node `p`. The gather, the sum and the inverse in-degree are the same operations on both sides;
  the one difference is how the inverse in-degree (one number per node) is laid out as a 100000 × 32 factor: the kernel
  program reshapes it to a column and broadcasts the column along the rows, the reference broadcasts it to a column and
  then along the rows. Read at an entry `(p, j)` both are the inverse in-degree of node `p`.
-/
import proofs.«103064_j19688130085786_1_alg».proof.Proof.KValue
import proofs.«103064_j19688130085786_1_alg».proof.Proof.RefValue

set_option maxRecDepth 16384

noncomputable section

namespace Cert.Bridge

open Idealize.ShloMosaic Idealize.ShloMosaic.ValueIdx
open Cert.KernelIdeal (S1600000 S100000x32)
open Cert.KernelIdeal.KValue (inDeg invDeg invDegCol aggWith)
open Cert.ReferenceIdeal.ReadP

/-- The inverse in-degree: the kernel program's term is the reference's. -/
theorem invDeg_eq (x2 : IVec S1600000 32) : invDeg x2 = val_main_v10 (F := Ideal) x2 := rfl

/-- The kernel program's factor at `(p, j)`: the column read in row `p`, which is the inverse in-degree of node `p`. -/
theorem col_kernel (x2 : IVec S1600000 32) (p : Fin 100000) (j : Fin 32) :
    broadcastInDim S100000x32 ![0, 1] Cert.KernelIdeal.Gen.bcast_S100000x1_S100000x32_0_1 (invDegCol x2) (ix2 p j) = invDeg x2 (ix1 p) := by
  rw [broadcastInDim_apply _ Cert.KernelIdeal.Gen.bcast_S100000x1_S100000x32_0_1 (invDegCol x2) (ix2 p j) (ix2 p 0) (fun a => match a with
    | ⟨0, _⟩ => by show p.val = if (100000 : Nat) = 1 then 0 else p.val; rw [if_neg (by decide)]
    | ⟨1, _⟩ => by show 0 = if (1 : Nat) = 1 then 0 else j.val; rw [if_pos rfl])]
  unfold Cert.KernelIdeal.KValue.invDegCol
  exact shapeCast_apply _ _ (ix2 p 0) (ix1 p) (by
    rw [Shape.rowMajor_val_one, Shape.rowMajor_val_two]; show p.val = p.val * 1 + 0; omega)

/-- The reference's factor at `(p, j)`: the same number. -/
theorem col_reference (x2 : IVec S1600000 32) (p : Fin 100000) (j : Fin 32) :
    val_main_v22 (F := Ideal) x2 (ix2 p j) = val_main_v10 (F := Ideal) x2 (ix1 p) := by
  rw [val_main_v22_apply, val_main_v21_apply]
  exact congrArg _ (funext fun a => match a with | ⟨0, _⟩ => rfl)

/-- The aggregations agree on every feature array. -/
theorem agg_eq (x1 x2 : IVec S1600000 32) (h : FVec Ideal S100000x32 .f32) :
    Cert.KernelIdeal.KValue.agg x1 x2 h = Cert.ReferenceIdeal.RefValue.agg x1 x2 h := by
  funext i
  obtain ⟨p, j, rfl⟩ : ∃ (p : Fin 100000) (j : Fin 32), i = ix2 p j := ⟨i 0, i 1, eq_ix2 i⟩
  unfold Cert.KernelIdeal.KValue.agg Cert.KernelIdeal.KValue.aggWith Cert.ReferenceIdeal.RefValue.agg
  rw [mulf_apply, mulf_apply, col_kernel, col_reference, invDeg_eq]
  rfl

end Cert.Bridge

end
-- ==== Proof.lean ====
/-
  A three-layer graph network (mean aggregation over an edge list, two small matrix products, a bias and the logistic
  function per layer) as a Pallas kernel program against its jnp reference, over the extended reals.

  Both programs compute the same host-side aggregation before each layer; the kernel program then runs each layer as
  a grid of 20 row tiles of 5000 nodes (two products into zero accumulators, the bias row broadcast, `logistic`), the
  reference as whole-array products and `1 / (1 + exp(-x))`. At the ideal instance a product is the plain sum over the
  contracted axis whatever the tiling, and `logistic` is that quotient, so both results are `Cert.Spec.net` of the
  arguments (Proof/KValue.lean for the kernel program, Proof/RefValue.lean for the reference), with aggregations that
  agree entry by entry (Proof/Bridge.lean). No law of arithmetic that could fail at an infinity is used, so the
  precondition is never opened. The ideal pass rewrote nothing, so `preserves` is trivial.
-/
import proofs.«103064_j19688130085786_1_alg».proof.Defs
import proofs.«103064_j19688130085786_1_alg».proof.Proof.Gen.Kernel
import proofs.«103064_j19688130085786_1_alg».proof.Proof.Gen.Kernel.Frame
import proofs.«103064_j19688130085786_1_alg».proof.Proof.Gen.KernelIdeal
import proofs.«103064_j19688130085786_1_alg».proof.Proof.Gen.KernelIdeal.Frame
import proofs.«103064_j19688130085786_1_alg».proof.Proof.Gen.ReferenceIdeal
import proofs.«103064_j19688130085786_1_alg».proof.Proof.Gen.Pre_finite_inputs
import proofs.«103064_j19688130085786_1_alg».proof.Proof.KRun
import proofs.«103064_j19688130085786_1_alg».proof.Proof.KValue
import proofs.«103064_j19688130085786_1_alg».proof.Proof.RefRun
import proofs.«103064_j19688130085786_1_alg».proof.Proof.RefRead
import proofs.«103064_j19688130085786_1_alg».proof.Proof.RefValue
import proofs.«103064_j19688130085786_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the three-layer network of their arguments; the arguments agree, and so do the two
    aggregations (`Cert.Bridge.agg_eq`). -/
theorem algebraic : Cert.algebraic_KernelIdeal_ReferenceIdeal := by
  intro m ρ m' ρ' _ hagree
  refine ⟨fun c => Cert.KernelIdeal.KValue.layer3 m c, ?_, ?_⟩
  · exact (θ_run Cert.KernelIdeal.defs _ _).mono
      (fun r h c => ⟨(h c).1.trans (Cert.KernelIdeal.KValue.W8_v53 m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11⟩ := hagree c
    rw [Cert.ReferenceIdeal.ReadP.val_main_v85_eq, Cert.ReferenceIdeal.RefValue.ref_value,
      e0, e1, e2, e3, e4, e5, e6, e7, e8, e9, e10, e11]
    show _ = Cert.KernelIdeal.KValue.layer3 m c
    rw [Cert.KernelIdeal.KValue.layer3_eq_net]
    exact (Cert.Spec.net_congr (Cert.Bridge.agg_eq _ _) _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
